-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x7 : Shape := ⟨2, ![1048576, 7]⟩
abbrev S1048576x4 : Shape := ⟨2, ![1048576, 4]⟩
abbrev S11x15 : Shape := ⟨2, ![11, 15]⟩
abbrev S15 : Shape := ⟨1, ![15]⟩
abbrev S11x8 : Shape := ⟨2, ![11, 8]⟩
abbrev S8 : Shape := ⟨1, ![8]⟩
abbrev S8x4 : Shape := ⟨2, ![8, 4]⟩
abbrev S4 : Shape := ⟨1, ![4]⟩
abbrev S4x6 : Shape := ⟨2, ![4, 6]⟩
abbrev S_ : Shape := ⟨0, ![]⟩

class Facts : Prop where
  bcast_S_S1048576x7 : S_.BroadcastsInDim S1048576x7 (![] : Fin 0 → Fin S1048576x7.rank)
  reducesTo_S1048576x7_S_d0_1 : S1048576x7.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S11x15 : S_.BroadcastsInDim S11x15 (![] : Fin 0 → Fin S11x15.rank)
  reducesTo_S11x15_S_d0_1 : S11x15.ReducesTo [0, 1] S_
  bcast_S_S15 : S_.BroadcastsInDim S15 (![] : Fin 0 → Fin S15.rank)
  reducesTo_S15_S_d0 : S15.ReducesTo [0] S_
  bcast_S_S11x8 : S_.BroadcastsInDim S11x8 (![] : Fin 0 → Fin S11x8.rank)
  reducesTo_S11x8_S_d0_1 : S11x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x6 : S_.BroadcastsInDim S4x6 (![] : Fin 0 → Fin S4x6.rank)
  reducesTo_S4x6_S_d0_1 : S4x6.ReducesTo [0, 1] S_

variable [Facts]

def fn_part2 {F : FTy → Type} [FloatOps F] (main_arg7 : FVec F S4 .f32) (main_arg8 : FVec F S4 .f32) (main_arg9 : IVec S4x6 32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_c_16 : IVec S_ 32 := constantI S_ 32 0#32
  let main_v44 : IVec S4x6 32 := broadcastInDim S4x6 ![] bcast_S_S4x6 main_c_16
  let main_v45 : IVec S4x6 1 := cmpi .sge main_arg9 main_v44
  let main_c_17 : IVec S_ 32 := constantI S_ 32 15#32
  let main_v46 : IVec S4x6 32 := broadcastInDim S4x6 ![] bcast_S_S4x6 main_c_17
  let main_v47 : IVec S4x6 1 := cmpi .slt main_arg9 main_v46
  let main_v48 : IVec S4x6 1 := andi main_v45 main_v47
  let main_c_18 : IVec S_ 1 := constantI S_ 1 1#1
  let main_v49 : IVec S_ 1 := (fun x v => Host.reduce IntOp.andi x v reducesTo_S4x6_S_d0_1 h_S_) main_v48 main_c_18
  let main_v50 : IVec S_ 1 := andi main_v43 main_v49
  main_v50

def fn_part1 {F : FTy → Type} [FloatOps F] (main_arg4 : FVec F S11x8 .f32) (main_arg5 : FVec F S8 .f32) (main_arg6 : FVec F S8x4 .f32) (main_arg7 : FVec F S4 .f32) (main_arg8 : FVec F S4 .f32) (main_arg9 : IVec S4x6 32) (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  let main_v19 : FVec F S11x8 .f32 := Host.absf main_arg4
  let main_cst_6 : FVec F S_ .f32 := constant S_ .f32 0x7F800000#32
  let main_v20 : FVec F S11x8 .f32 := broadcastInDim S11x8 ![] bcast_S_S11x8 main_cst_6
  let main_v21 : IVec S11x8 1 := cmpf .olt main_v19 main_v20
  let main_c_7 : IVec S_ 1 := constantI S_ 1 1#1
  let main_v22 : IVec S_ 1 := (fun x v => Host.reduce IntOp.andi x v reducesTo_S11x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x4 .f32 := Host.absf main_arg6
  let main_cst_10 : FVec F S_ .f32 := constant S_ .f32 0x7F800000#32
  let main_v30 : FVec F S8x4 .f32 := broadcastInDim S8x4 ![] bcast_S_S8x4 main_cst_10
  let main_v31 : IVec S8x4 1 := cmpf .olt main_v29 main_v30
  let main_c_11 : IVec S_ 1 := constantI S_ 1 1#1
  let main_v32 : IVec S_ 1 := (fun x v => Host.reduce IntOp.andi x v reducesTo_S8x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S1048576x7 .f32) (main_arg1 : FVec F S1048576x4 .f32) (main_arg2 : FVec F S11x15 .f32) (main_arg3 : FVec F S15 .f32) (main_arg4 : FVec F S11x8 .f32) (main_arg5 : FVec F S8 .f32) (main_arg6 : FVec F S8x4 .f32) (main_arg7 : FVec F S4 .f32) (main_arg8 : FVec F S4 .f32) (main_arg9 : IVec S4x6 32) : IVec S_ 1 :=
  let main_v0 : FVec F S1048576x7 .f32 := Host.absf main_arg0
  let main_cst : FVec F S_ .f32 := constant S_ .f32 0x7F800000#32
  let main_v1 : FVec F S1048576x7 .f32 := broadcastInDim S1048576x7 ![] bcast_S_S1048576x7 main_cst
  let main_v2 : IVec S1048576x7 1 := cmpf .olt main_v0 main_v1
  let main_c : IVec S_ 1 := constantI S_ 1 1#1
  let main_v3 : IVec S_ 1 := (fun x v => Host.reduce IntOp.andi x v reducesTo_S1048576x7_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S11x15 .f32 := Host.absf main_arg2
  let main_cst_2 : FVec F S_ .f32 := constant S_ .f32 0x7F800000#32
  let main_v10 : FVec F S11x15 .f32 := broadcastInDim S11x15 ![] bcast_S_S11x15 main_cst_2
  let main_v11 : IVec S11x15 1 := cmpf .olt main_v9 main_v10
  let main_c_3 : IVec S_ 1 := constantI S_ 1 1#1
  let main_v12 : IVec S_ 1 := (fun x v => Host.reduce IntOp.andi x v reducesTo_S11x15_S_d0_1 h_S_) main_v11 main_c_3
  let main_v13 : IVec S_ 1 := andi main_v8 main_v12
  let main_v14 : FVec F S15 .f32 := Host.absf main_arg3
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_arg4 main_arg5 main_arg6 main_arg7 main_arg8 main_arg9 main_v13 main_v16
-- ==== Kernel.lean ====
abbrev S1048576x7 : Shape := ⟨2, ![1048576, 7]⟩
abbrev S1048576x4 : Shape := ⟨2, ![1048576, 4]⟩
abbrev S11x15 : Shape := ⟨2, ![11, 15]⟩
abbrev S15 : Shape := ⟨1, ![15]⟩
abbrev S11x8 : Shape := ⟨2, ![11, 8]⟩
abbrev S8 : Shape := ⟨1, ![8]⟩
abbrev S8x4 : Shape := ⟨2, ![8, 4]⟩
abbrev S4 : Shape := ⟨1, ![4]⟩
abbrev S4x6 : Shape := ⟨2, ![4, 6]⟩
abbrev S6x24 : Shape := ⟨2, ![6, 24]⟩
abbrev S24x4 : Shape := ⟨2, ![24, 4]⟩
abbrev S_ : Shape := ⟨0, ![]⟩
abbrev S11x23 : Shape := ⟨2, ![11, 23]⟩
abbrev S23 : Shape := ⟨1, ![23]⟩
abbrev S1x4 : Shape := ⟨2, ![1, 4]⟩
abbrev S24 : Shape := ⟨1, ![24]⟩
abbrev S24x1 : Shape := ⟨2, ![24, 1]⟩
abbrev S1x15 : Shape := ⟨2, ![1, 15]⟩
abbrev S24x15 : Shape := ⟨2, ![24, 15]⟩
abbrev S15x24 : Shape := ⟨2, ![15, 24]⟩
abbrev S15x4 : Shape := ⟨2, ![15, 4]⟩
abbrev S15x28 : Shape := ⟨2, ![15, 28]⟩
abbrev S8192x7 : Shape := ⟨2, ![8192, 7]⟩
abbrev S8192x4 : Shape := ⟨2, ![8192, 4]⟩
abbrev S8192x11 : Shape := ⟨2, ![8192, 11]⟩
abbrev S8192x23 : Shape := ⟨2, ![8192, 23]⟩
abbrev S1x23 : Shape := ⟨2, ![1, 23]⟩
abbrev S8192x15 : Shape := ⟨2, ![8192, 15]⟩
abbrev S8192x8 : Shape := ⟨2, ![8192, 8]⟩
abbrev S8192x28 : Shape := ⟨2, ![8192, 28]⟩
abbrev S8192x24 : Shape := ⟨2, ![8192, 24]⟩
abbrev S8192x2 : Shape := ⟨2, ![8192, 2]⟩
abbrev S8192x6 : Shape := ⟨2, ![8192, 6]⟩

abbrev nBuf : Space → Nat
  | .hbm => 42
  | .vmem => 13
  | .smem => 0
  | _ => 0

abbrev bufTy : (tb : Table) → Fin (tcTables nBuf tb) → BufTy
  | .hbm, ⟨0, _⟩ => ⟨S1048576x7, .f32⟩
  | .hbm, ⟨1, _⟩ => ⟨S1048576x4, .f32⟩
  | .hbm, ⟨2, _⟩ => ⟨S11x15, .f32⟩
  | .hbm, ⟨3, _⟩ => ⟨S15, .f32⟩
  | .hbm, ⟨4, _⟩ => ⟨S11x8, .f32⟩
  | .hbm, ⟨5, _⟩ => ⟨S8, .f32⟩
  | .hbm, ⟨6, _⟩ => ⟨S8x4, .f32⟩
  | .hbm, ⟨7, _⟩ => ⟨S4, .f32⟩
  | .hbm, ⟨8, _⟩ => ⟨S4, .f32⟩
  | .hbm, ⟨9, _⟩ => ⟨S4x6, .i32⟩
  | .hbm, ⟨10, _⟩ => ⟨S6x24, .f32⟩
  | .hbm, ⟨11, _⟩ => ⟨S24x4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S11x8, .f32⟩
  | .hbm, ⟨18, _⟩ => ⟨S11x8, .f32⟩
  | .hbm, ⟨19, _⟩ => ⟨S11x23, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S23, .f32⟩
  | .hbm, ⟨24, _⟩ => ⟨S1x4, .f32⟩
  | .hbm, ⟨25, _⟩ => ⟨S8x4, .f32⟩
  | .hbm, ⟨26, _⟩ => ⟨S8x4, .f32⟩
  | .hbm, ⟨27, _⟩ => ⟨S4, .f32⟩
  | .hbm, ⟨28, _⟩ => ⟨S24, .i32⟩
  | .hbm, ⟨29, _⟩ => ⟨S24x1, .i32⟩
  | .hbm, ⟨30, _⟩ => ⟨S1x15, .i32⟩
  | .hbm, ⟨31, _⟩ => ⟨S24x15, .i32⟩
  | .hbm, ⟨32, _⟩ => ⟨S24x15, .i32⟩
  | .hbm, ⟨33, _⟩ => ⟨S24x15, .i1⟩
  | .hbm, ⟨34, _⟩ => ⟨S24x15, .f32⟩
  | .hbm, ⟨35, _⟩ => ⟨S15x24, .f32⟩
  | .hbm, ⟨36, _⟩ => ⟨S1x4, .f32⟩
  | .hbm, ⟨37, _⟩ => ⟨S24x4, .f32⟩
  | .hbm, ⟨38, _⟩ => ⟨S24x4, .f32⟩
  | .hbm, ⟨39, _⟩ => ⟨S15x4, .f32⟩
  | .hbm, ⟨40, _⟩ => ⟨S15x28, .f32⟩
  | .hbm, ⟨41, _⟩ => ⟨S1048576x4, .f32⟩
  | .local _ .vmem, ⟨0, _⟩ => ⟨S8192x7, .f32⟩
  | .local _ .vmem, ⟨1, _⟩ => ⟨S8192x7, .f32⟩
  | .local _ .vmem, ⟨2, _⟩ => ⟨S8192x4, .f32⟩
  | .local _ .vmem, ⟨3, _⟩ => ⟨S8192x4, .f32⟩
  | .local _ .vmem, ⟨4, _⟩ => ⟨S11x23, .f32⟩
  | .local _ .vmem, ⟨5, _⟩ => ⟨S23, .f32⟩
  | .local _ .vmem, ⟨6, _⟩ => ⟨S8x4, .f32⟩
  | .local _ .vmem, ⟨7, _⟩ => ⟨S4, .f32⟩
  | .local _ .vmem, ⟨8, _⟩ => ⟨S15x28, .f32⟩
  | .local _ .vmem, ⟨9, _⟩ => ⟨S6x24, .f32⟩
  | .local _ .vmem, ⟨10, _⟩ => ⟨S24x4, .f32⟩
  | .local _ .vmem, ⟨11, _⟩ => ⟨S8192x4, .f32⟩
  | .local _ .vmem, ⟨12, _⟩ => ⟨S8192x4, .f32⟩
  | _, _ => ⟨S1048576x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x23 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S23 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S4 : S_.BroadcastsInDim S4 (![] : Fin 0 → Fin S4.rank)
  bcast_S_S11x8 : S_.BroadcastsInDim S11x8 (![] : Fin 0 → Fin S11x8.rank)
  concatenates_S11x15_S11x8_S11x23_d1 : Shape.Concatenates [S11x15, S11x8] S11x23 1
  bcast_S_S8 : S_.BroadcastsInDim S8 (![] : Fin 0 → Fin S8.rank)
  concatenates_S15_S8_S23_d0 : Shape.Concatenates [S15, S8] S23 0
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  shapeCasts_S4x6_S24 : S4x6.ShapeCasts S24
  bcast_S24_S24x1_0 : S24.BroadcastsInDim S24x1 (![0] : Fin 1 → Fin S24x1.rank)
  bcast_S24x1_S24x15_0_1 : S24x1.BroadcastsInDim S24x15 (![0, 1] : Fin 2 → Fin S24x15.rank)
  bcast_S1x15_S24x15_0_1 : S1x15.BroadcastsInDim S24x15 (![0, 1] : Fin 2 → Fin S24x15.rank)
  transposes_S24x15_S15x24_1_0 : S24x15.Transposes [1, 0] S15x24
  bcast_S1x4_S24x4_0_1 : S1x4.BroadcastsInDim S24x4 (![0, 1] : Fin 2 → Fin S24x4.rank)
  concatenates_S15x24_S15x4_S15x28_d1 : Shape.Concatenates [S15x24, S15x4] S15x28 1
  inb_S8192x7_S8192x7_0_0 : ∀ a, (![0, 0] : Fin 2 → Nat) a + S8192x7.size a ≤ S8192x7.size a
  h_S8192x7 : 0 < S8192x7.numel
  inb_S8192x4_S8192x4_0_0 : ∀ a, (![0, 0] : Fin 2 → Nat) a + S8192x4.size a ≤ S8192x4.size a
  h_S8192x4 : 0 < S8192x4.numel
  concatenates_S8192x7_S8192x4_S8192x11_d1 : Shape.Concatenates [S8192x7, S8192x4] S8192x11 1
  inb_S11x23_S11x23_0_0 : ∀ a, (![0, 0] : Fin 2 → Nat) a + S11x23.size a ≤ S11x23.size a
  h_S11x23 : 0 < S11x23.numel
  shapeCasts_S11x23_S11x23 : S11x23.ShapeCasts S11x23
  inb_S23_S23_0 : ∀ a, (![0] : Fin 1 → Nat) a + S23.size a ≤ S23.size a
  h_S23 : 0 < S23.numel
  shapeCasts_S23_S23 : S23.ShapeCasts S23
  shapeCasts_S23_S1x23 : S23.ShapeCasts S1x23
  broadcasts_S1x23_S8192x23 : S1x23.Broadcasts S8192x23
  slices_S8192x23_o0_0_S8192x15 : S8192x23.Slices ![0, 0] S8192x15
  slices_S8192x23_o0_15_S8192x8 : S8192x23.Slices ![0, 15] S8192x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S8192x4 : S1x4.Broadcasts S8192x4
  inb_S15x28_S15x28_0_0 : ∀ a, (![0, 0] : Fin 2 → Nat) a + S15x28.size a ≤ S15x28.size a
  h_S15x28 : 0 < S15x28.numel
  shapeCasts_S15x28_S15x28 : S15x28.ShapeCasts S15x28
  slices_S8192x28_o0_0_S8192x24 : S8192x28.Slices ![0, 0] S8192x24
  slices_S8192x28_o0_24_S8192x4 : S8192x28.Slices ![0, 24] S8192x4
  slices_S8192x7_o0_0_S8192x2 : S8192x7.Slices ![0, 0] S8192x2
  concatenates_S8192x4_S8192x2_S8192x6_d1 : Shape.Concatenates [S8192x4, S8192x2] S8192x6 1
  inb_S6x24_S6x24_0_0 : ∀ a, (![0, 0] : Fin 2 → Nat) a + S6x24.size a ≤ S6x24.size a
  h_S6x24 : 0 < S6x24.numel
  inb_S24x4_S24x4_0_0 : ∀ a, (![0, 0] : Fin 2 → Nat) a + S24x4.size a ≤ S24x4.size a
  h_S24x4 : 0 < S24x4.numel
  shapeCasts_S24x4_S24x4 : S24x4.ShapeCasts S24x4
  dot_S15x24_S24x4_S15x4_1_0_0_1_n_n_wf : DotDims.WF S15x24 S24x4 S15x4 [1] [0] [0] [1] [] []
  dot_S8192x11_S11x23_S8192x23_1_0_0_1_n_n_wf : DotDims.WF S8192x11 S11x23 S8192x23 [1] [0] [0] [1] [] []
  dot_S8192x8_S8x4_S8192x4_1_0_0_1_n_n_wf : DotDims.WF S8192x8 S8x4 S8192x4 [1] [0] [0] [1] [] []
  dot_S8192x15_S15x28_S8192x28_1_0_0_1_n_n_wf : DotDims.WF S8192x15 S15x28 S8192x28 [1] [0] [0] [1] [] []
  dot_S8192x6_S6x24_S8192x24_1_0_0_1_n_n_wf : DotDims.WF S8192x6 S6x24 S8192x24 [1] [0] [0] [1] [] []
  dot_S8192x24_S24x4_S8192x4_1_0_0_1_n_n_wf : DotDims.WF S8192x24 S24x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x7.size a ≤ S1048576x7.size a
  hwx0_0 : ∀ i : grid0.Coords, EltTy.bits .f32 = 32 ∨ (Rect.block (s := S1048576x7) S8192x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S1048576x4.size a
  hwx0_1 : ∀ i : grid0.Coords, EltTy.bits .f32 = 32 ∨ (Rect.block (s := S1048576x4) S8192x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x23.size a ≤ S11x23.size a
  hwx0_2 : ∀ i : grid0.Coords, EltTy.bits .f32 = 32 ∨ (Rect.block (s := S11x23) S11x23.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S23.size a ≤ S23.size a
  hwx0_3 : ∀ i : grid0.Coords, EltTy.bits .f32 = 32 ∨ (Rect.block (s := S23) S23.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x4.size a ≤ S8x4.size a
  hwx0_4 : ∀ i : grid0.Coords, EltTy.bits .f32 = 32 ∨ (Rect.block (s := S8x4) S8x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x28.size a ≤ S15x28.size a
  hwx0_6 : ∀ i : grid0.Coords, EltTy.bits .f32 = 32 ∨ (Rect.block (s := S15x28) S15x28.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x24.size a ≤ S6x24.size a
  hwx0_7 : ∀ i : grid0.Coords, EltTy.bits .f32 = 32 ∨ (Rect.block (s := S6x24) S6x24.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24x4.size a ≤ S24x4.size a
  hwx0_8 : ∀ i : grid0.Coords, EltTy.bits .f32 = 32 ∨ (Rect.block (s := S24x4) S24x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x4.size a ≤ S1048576x4.size a
  hwx0_9 : ∀ i : grid0.Coords, EltTy.bits .f32 = 32 ∨ (Rect.block (s := S1048576x4) S8192x4.size (cc0_transform_9 i) (hinb0_9 i)).WholeWords (EltTy.packing .f32)

variable [Facts₀]

def dot_S15x24_S24x4_S15x4_1_0_0_1_n_n : DotDims S15x24 S24x4 S15x4 where
  lhsContracting := [1]
  rhsContracting := [0]
  lhsNonContracting := [0]
  rhsNonContracting := [1]
  lhsBatch := []
  rhsBatch := []
  wf := dot_S15x24_S24x4_S15x4_1_0_0_1_n_n_wf
def dot_S8192x11_S11x23_S8192x23_1_0_0_1_n_n : DotDims S8192x11 S11x23 S8192x23 where
  lhsContracting := [1]
  rhsContracting := [0]
  lhsNonContracting := [0]
  rhsNonContracting := [1]
  lhsBatch := []
  rhsBatch := []
  wf := dot_S8192x11_S11x23_S8192x23_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x15_S15x28_S8192x28_1_0_0_1_n_n : DotDims S8192x15 S15x28 S8192x28 where
  lhsContracting := [1]
  rhsContracting := [0]
  lhsNonContracting := [0]
  rhsNonContracting := [1]
  lhsBatch := []
  rhsBatch := []
  wf := dot_S8192x15_S15x28_S8192x28_1_0_0_1_n_n_wf
def dot_S8192x6_S6x24_S8192x24_1_0_0_1_n_n : DotDims S8192x6 S6x24 S8192x24 where
  lhsContracting := [1]
  rhsContracting := [0]
  lhsNonContracting := [0]
  rhsNonContracting := [1]
  lhsBatch := []
  rhsBatch := []
  wf := dot_S8192x6_S6x24_S8192x24_1_0_0_1_n_n_wf
def dot_S8192x24_S24x4_S8192x4_1_0_0_1_n_n : DotDims S8192x24 S24x4 S8192x4 where
  lhsContracting := [1]
  rhsContracting := [0]
  lhsNonContracting := [0]
  rhsNonContracting := [1]
  lhsBatch := []
  rhsBatch := []
  wf := dot_S8192x24_S24x4_S8192x4_1_0_0_1_n_n_wf

abbrev win0_0 : Pipeline.Window sig grid0 :=
  Pipeline.Window.ofSpec (Memref.whole main_arg0) S8192x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S11x23.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S23.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S15x28.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S6x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S24x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S8192x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576x7 : Shape := ⟨2, ![1048576, 7]⟩
abbrev S1048576x4 : Shape := ⟨2, ![1048576, 4]⟩
abbrev S11x15 : Shape := ⟨2, ![11, 15]⟩
abbrev S15 : Shape := ⟨1, ![15]⟩
abbrev S11x8 : Shape := ⟨2, ![11, 8]⟩
abbrev S8 : Shape := ⟨1, ![8]⟩
abbrev S8x4 : Shape := ⟨2, ![8, 4]⟩
abbrev S4 : Shape := ⟨1, ![4]⟩
abbrev S4x6 : Shape := ⟨2, ![4, 6]⟩
abbrev S1048576x2 : Shape := ⟨2, ![1048576, 2]⟩
abbrev S1048576x6 : Shape := ⟨2, ![1048576, 6]⟩
abbrev S1048576x11 : Shape := ⟨2, ![1048576, 11]⟩
abbrev S1048576x15 : Shape := ⟨2, ![1048576, 15]⟩
abbrev S1x15 : Shape := ⟨2, ![1, 15]⟩
abbrev S_ : Shape := ⟨0, ![]⟩
abbrev S1048576x8 : Shape := ⟨2, ![1048576, 8]⟩
abbrev S1x8 : Shape := ⟨2, ![1, 8]⟩
abbrev S1x4 : Shape := ⟨2, ![1, 4]⟩
abbrev S4x6x1 : Shape := ⟨3, ![4, 6, 1]⟩
abbrev S1048576x4x6 : Shape := ⟨3, ![1048576, 4, 6]⟩
abbrev S1048576x1x6 : Shape := ⟨3, ![1048576, 1, 6]⟩
abbrev S1048576x4x1 : Shape := ⟨3, ![1048576, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S1048576x7, .f32⟩
  | .hbm, ⟨1, _⟩ => ⟨S1048576x4, .f32⟩
  | .hbm, ⟨2, _⟩ => ⟨S11x15, .f32⟩
  | .hbm, ⟨3, _⟩ => ⟨S15, .f32⟩
  | .hbm, ⟨4, _⟩ => ⟨S11x8, .f32⟩
  | .hbm, ⟨5, _⟩ => ⟨S8, .f32⟩
  | .hbm, ⟨6, _⟩ => ⟨S8x4, .f32⟩
  | .hbm, ⟨7, _⟩ => ⟨S4, .f32⟩
  | .hbm, ⟨8, _⟩ => ⟨S4, .f32⟩
  | .hbm, ⟨9, _⟩ => ⟨S4x6, .i32⟩
  | .hbm, ⟨10, _⟩ => ⟨S1048576x2, .f32⟩
  | .hbm, ⟨11, _⟩ => ⟨S1048576x6, .f32⟩
  | .hbm, ⟨12, _⟩ => ⟨S1048576x11, .f32⟩
  | .hbm, ⟨13, _⟩ => ⟨S1048576x15, .f32⟩
  | .hbm, ⟨14, _⟩ => ⟨S1x15, .f32⟩
  | .hbm, ⟨15, _⟩ => ⟨S1048576x15, .f32⟩
  | .hbm, ⟨16, _⟩ => ⟨S1048576x15, .f32⟩
  | .hbm, ⟨17, _⟩ => ⟨S1048576x15, .f32⟩
  | .hbm, ⟨18, _⟩ => ⟨S1048576x15, .f32⟩
  | .hbm, ⟨19, _⟩ => ⟨S_, .f32⟩
  | .hbm, ⟨20, _⟩ => ⟨S1048576x15, .f32⟩
  | .hbm, ⟨21, _⟩ => ⟨S1048576x15, .f32⟩
  | .hbm, ⟨22, _⟩ => ⟨S_, .f32⟩
  | .hbm, ⟨23, _⟩ => ⟨S1048576x15, .f32⟩
  | .hbm, ⟨24, _⟩ => ⟨S1048576x15, .f32⟩
  | .hbm, ⟨25, _⟩ => ⟨S1048576x15, .f32⟩
  | .hbm, ⟨26, _⟩ => ⟨S1048576x8, .f32⟩
  | .hbm, ⟨27, _⟩ => ⟨S1x8, .f32⟩
  | .hbm, ⟨28, _⟩ => ⟨S1048576x8, .f32⟩
  | .hbm, ⟨29, _⟩ => ⟨S1048576x8, .f32⟩
  | .hbm, ⟨30, _⟩ => ⟨S1048576x8, .f32⟩
  | .hbm, ⟨31, _⟩ => ⟨S1048576x4, .f32⟩
  | .hbm, ⟨32, _⟩ => ⟨S1x4, .f32⟩
  | .hbm, ⟨33, _⟩ => ⟨S1048576x4, .f32⟩
  | .hbm, ⟨34, _⟩ => ⟨S1048576x4, .f32⟩
  | .hbm, ⟨35, _⟩ => ⟨S1048576x4, .f32⟩
  | .hbm, ⟨36, _⟩ => ⟨S_, .i32⟩
  | .hbm, ⟨37, _⟩ => ⟨S4x6, .i32⟩
  | .hbm, ⟨38, _⟩ => ⟨S4x6, .i1⟩
  | .hbm, ⟨39, _⟩ => ⟨S_, .i32⟩
  | .hbm, ⟨40, _⟩ => ⟨S4x6, .i32⟩
  | .hbm, ⟨41, _⟩ => ⟨S4x6, .i32⟩
  | .hbm, ⟨42, _⟩ => ⟨S4x6, .i32⟩
  | .hbm, ⟨43, _⟩ => ⟨S4x6x1, .i32⟩
  | .hbm, ⟨44, _⟩ => ⟨S1048576x4x6, .f32⟩
  | .hbm, ⟨45, _⟩ => ⟨S1048576x1x6, .f32⟩
  | .hbm, ⟨46, _⟩ => ⟨S1048576x4x1, .f32⟩
  | .hbm, ⟨47, _⟩ => ⟨S1048576x4x6, .f32⟩
  | .hbm, ⟨48, _⟩ => ⟨S1048576x4x6, .f32⟩
  | .hbm, ⟨49, _⟩ => ⟨S1048576x4x6, .f32⟩
  | .hbm, ⟨50, _⟩ => ⟨S1048576x4x6, .f32⟩
  | .hbm, ⟨51, _⟩ => ⟨S_, .f32⟩
  | .hbm, ⟨52, _⟩ => ⟨S1048576x4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S1048576x4, .f32⟩
  | .hbm, ⟨58, _⟩ => ⟨S1x4, .f32⟩
  | .hbm, ⟨59, _⟩ => ⟨S1048576x4, .f32⟩
  | .hbm, ⟨60, _⟩ => ⟨S1048576x4, .f32⟩
  | .hbm, ⟨61, _⟩ => ⟨S1048576x4, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1048576x4, .f32⟩
  | .hbm, ⟨66, _⟩ => ⟨S1048576x4, .f32⟩
  | .hbm, ⟨67, _⟩ => ⟨S_, .f32⟩
  | .hbm, ⟨68, _⟩ => ⟨S1048576x4, .f32⟩
  | .hbm, ⟨69, _⟩ => ⟨S1048576x4, .f32⟩
  | _, _ => ⟨S1048576x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  slices_S1048576x7_S1048576x2_0_0 : S1048576x7.Slices ![0, 0] S1048576x2
  concatenates_S1048576x4_S1048576x2_S1048576x6_d1 : Shape.Concatenates [S1048576x4, S1048576x2] S1048576x6 1
  concatenates_S1048576x7_S1048576x4_S1048576x11_d1 : Shape.Concatenates [S1048576x7, S1048576x4] S1048576x11 1
  bcast_S15_S1x15_1 : S15.BroadcastsInDim S1x15 (![1] : Fin 1 → Fin S1x15.rank)
  bcast_S1x15_S1048576x15_0_1 : S1x15.BroadcastsInDim S1048576x15 (![0, 1] : Fin 2 → Fin S1048576x15.rank)
  bcast_S_S1048576x15 : S_.BroadcastsInDim S1048576x15 (![] : Fin 0 → Fin S1048576x15.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  bcast_S_S4x6 : S_.BroadcastsInDim S4x6 (![] : Fin 0 → Fin S4x6.rank)
  bcast_S4x6_S4x6x1_0_1 : S4x6.BroadcastsInDim S4x6x1 (![0, 1] : Fin 2 → Fin S4x6x1.rank)
  bcast_S1048576x6_S1048576x1x6_0_2 : S1048576x6.BroadcastsInDim S1048576x1x6 (![0, 2] : Fin 2 → Fin S1048576x1x6.rank)
  bcast_S1048576x4_S1048576x4x1_0_1 : S1048576x4.BroadcastsInDim S1048576x4x1 (![0, 1] : Fin 2 → Fin S1048576x4x1.rank)
  bcast_S1048576x1x6_S1048576x4x6_0_1_2 : S1048576x1x6.BroadcastsInDim S1048576x4x6 (![0, 1, 2] : Fin 3 → Fin S1048576x4x6.rank)
  bcast_S1048576x4x1_S1048576x4x6_0_1_2 : S1048576x4x1.BroadcastsInDim S1048576x4x6 (![0, 1, 2] : Fin 3 → Fin S1048576x4x6.rank)
  reducesTo_S1048576x4x6_S1048576x4_d2 : S1048576x4x6.ReducesTo [2] S1048576x4
  h_S_ : 0 < S_.numel
  bcast_S_S4 : S_.BroadcastsInDim S4 (![] : Fin 0 → Fin S4.rank)
  bcast_S_S1048576x4 : S_.BroadcastsInDim S1048576x4 (![] : Fin 0 → Fin S1048576x4.rank)
  dot_S1048576x11_S11x15_S1048576x15_1_0_0_1_n_n_wf : DotDims.WF S1048576x11 S11x15 S1048576x15 [1] [0] [0] [1] [] []
  dot_S1048576x11_S11x8_S1048576x8_1_0_0_1_n_n_wf : DotDims.WF S1048576x11 S11x8 S1048576x8 [1] [0] [0] [1] [] []
  dot_S1048576x8_S8x4_S1048576x4_1_0_0_1_n_n_wf : DotDims.WF S1048576x8 S8x4 S1048576x4 [1] [0] [0] [1] [] []
  gather_S1048576x15_S4x6x1_S1048576x4x6_0_1_n_n_1_2_10485761_wf : GatherDims.WF S1048576x15 S4x6x1 S1048576x4x6 [0] [1] [] [1] [] 2 ![1048576, 1]

variable [Facts₀]

def dot_S1048576x11_S11x15_S1048576x15_1_0_0_1_n_n : DotDims S1048576x11 S11x15 S1048576x15 where
  lhsContracting := [1]
  rhsContracting := [0]
  lhsNonContracting := [0]
  rhsNonContracting := [1]
  lhsBatch := []
  rhsBatch := []
  wf := dot_S1048576x11_S11x15_S1048576x15_1_0_0_1_n_n_wf
def dot_S1048576x11_S11x8_S1048576x8_1_0_0_1_n_n : DotDims S1048576x11 S11x8 S1048576x8 where
  lhsContracting := [1]
  rhsContracting := [0]
  lhsNonContracting := [0]
  rhsNonContracting := [1]
  lhsBatch := []
  rhsBatch := []
  wf := dot_S1048576x11_S11x8_S1048576x8_1_0_0_1_n_n_wf
def dot_S1048576x8_S8x4_S1048576x4_1_0_0_1_n_n : DotDims S1048576x8 S8x4 S1048576x4 where
  lhsContracting := [1]
  rhsContracting := [0]
  lhsNonContracting := [0]
  rhsNonContracting := [1]
  lhsBatch := []
  rhsBatch := []
  wf := dot_S1048576x8_S8x4_S1048576x4_1_0_0_1_n_n_wf
def gather_S1048576x15_S4x6x1_S1048576x4x6_0_1_n_n_1_2_10485761 : GatherDims S1048576x15 S4x6x1 S1048576x4x6 where
  offsetDims := [0]
  collapsedSliceDims := [1]
  operandBatchingDims := []
  startIndicesBatchingDims := []
  startIndexMap := [1]
  indexVectorDim := 2
  sliceSizes := ![1048576, 1]
  wf := gather_S1048576x15_S4x6x1_S1048576x4x6_0_1_n_n_1_2_10485761_wf

class Facts : Prop extends Facts₀ where

variable [Facts]
-- ==== Proof.Spec.lean ====
/-
  The mathematics of the thermal-network cell, over the reals, one batch row at a time.

  A row has seven measured inputs x and four hidden temperatures h. Both programs form the eleven-vector
  a = (x, h) and the six temperatures t = (h, x_0, x_1), the fifteen conductances g_c = |σ(a·G_c + b_c)|
  (σ the logistic function), and a power loss from a two-layer perceptron. The new hidden temperature of
  target i is

      clip ( h_i + s_i · ( Σ_j (t_j − h_i) · g_{adj(i,j)}  +  | Σ_q tanh(a·P_q + p_q) · W_{q i} + w_i | ), −1, 3 ),

  with s_i = ½·exp(caps_i) > 0. The reference computes exactly this (refRow). The kernel computes it through
  matrices prepared beforehand (bodyRow over wgp1 … on): one fused affine map of width 23 whose last eight
  columns are doubled, so that tanh y = 2σ(2y) − 1 comes out of the same logistic pass; the positive scale s
  folded into the last layer (|y|·s = |y·s|); the gather g_{adj(i,j)} as a product with a one-hot matrix over
  the 24 flat positions n = 6i + j; and the two sums over j as products with 0/1 matrices.
-/
import Idealize.ShloMosaic.Lib.ValueIdx

noncomputable section

namespace Cert.Tnn

open Idealize.ShloMosaic Idealize.ShloMosaic.ValueIdx

/-- The logistic function. -/
def sg (y : ℝ) : ℝ := (1 + Real.exp (-y))⁻¹

/-- The cell's parameters: conductance layer gW, gb; perceptron pW1, pb1, pW2, pb2; log inverse capacities
    caps; and for each target i and temperature j the conductance adj i j that links them. -/
structure Params where
  gW : Fin 11 → Fin 15 → ℝ
  gb : Fin 15 → ℝ
  pW1 : Fin 11 → Fin 8 → ℝ
  pb1 : Fin 8 → ℝ
  pW2 : Fin 8 → Fin 4 → ℝ
  pb2 : Fin 4 → ℝ
  caps : Fin 4 → ℝ
  adj : Fin 4 → Fin 6 → Fin 15

/-- A whole batch: the measured inputs, the hidden temperatures, the parameters. -/
structure Data where
  X0 : Fin 1048576 → Fin 7 → ℝ
  X1 : Fin 1048576 → Fin 4 → ℝ
  P : Params

/-- a = (x, h): the measured inputs followed by the hidden temperatures. -/
def allIn (x : Fin 7 → ℝ) (h : Fin 4 → ℝ) (k : Fin 11) : ℝ :=
  if hk : k.val < 7 then x ⟨k.val, hk⟩ else h ⟨k.val - 7, by omega⟩

/-- t = (h, x_0, x_1): the hidden temperatures followed by the two measured ones. -/
def temps (x : Fin 7 → ℝ) (h : Fin 4 → ℝ) (j : Fin 6) : ℝ :=
  if hj : j.val < 4 then h ⟨j.val, hj⟩ else x ⟨j.val - 4, by omega⟩

/-- The step scale s_i = ½·exp(caps_i). -/
def scale (P : Params) (i : Fin 4) : ℝ := 1 / 2 * Real.exp (P.caps i)

/-- The conductances of a row. -/
def cond (P : Params) (x : Fin 7 → ℝ) (h : Fin 4 → ℝ) (c : Fin 15) : ℝ :=
  |sg (∑ k, allIn x h k * P.gW k c + P.gb c)|

/-- The reference's new hidden temperature of target i. -/
def refRow (P : Params) (x : Fin 7 → ℝ) (h : Fin 4 → ℝ) (i : Fin 4) : ℝ :=
  min 3 (max (-1) (h i + scale P i *
    ((∑ j, (temps x h j - h i) * cond P x h (P.adj i j))
      + |∑ q, Real.tanh (∑ k, allIn x h k * P.pW1 k q + P.pb1 q) * P.pW2 q i + P.pb2 i|)))

/-! ## The kernel's prepared matrices -/

/-- Flat position n = 6i + j belongs to target i = n / 6 … -/
def tgt (n : Fin 24) : Fin 4 := ⟨n.val / 6, by omega⟩
/-- … and temperature j = n % 6. -/
def src (n : Fin 24) : Fin 6 := ⟨n.val % 6, by omega⟩

/-- The fused first layer: the conductance weights, then the doubled perceptron weights. -/
def wgp1 (P : Params) (k : Fin 11) (q : Fin 23) : ℝ :=
  if hq : q.val < 15 then P.gW k ⟨q.val, hq⟩ else 2 * P.pW1 k ⟨q.val - 15, by omega⟩
/-- Its bias. -/
def bgp1 (P : Params) (q : Fin 23) : ℝ :=
  if hq : q.val < 15 then P.gb ⟨q.val, hq⟩ else 2 * P.pb1 ⟨q.val - 15, by omega⟩
/-- The last perceptron layer with the step scale folded in. -/
def pw2s (P : Params) (q : Fin 8) (i : Fin 4) : ℝ := P.pW2 q i * scale P i
/-- Its bias, scaled alike. -/
def pb2s (P : Params) (i : Fin 4) : ℝ := P.pb2 i * scale P i
/-- The one-hot matrix of the gather: conductance c is the one read at flat position n. -/
def oh (P : Params) (c : Fin 15) (n : Fin 24) : ℝ := if (P.adj (tgt n) (src n)).val = c.val then 1 else 0
/-- Summing the flat positions of target i, scaled. -/
def on (P : Params) (n : Fin 24) (i : Fin 4) : ℝ := (if (tgt n).val = i.val then 1 else 0) * scale P i
/-- Repeating the six temperatures over the 24 flat positions. -/
def tile (j : Fin 6) (n : Fin 24) : ℝ := if (src n).val = j.val then 1 else 0
/-- The one-hot matrix beside its product with on (28 columns). -/
def comb (P : Params) (c : Fin 15) (n : Fin 28) : ℝ :=
  if hn : n.val < 24 then oh P c ⟨n.val, hn⟩ else ∑ n' : Fin 24, oh P c n' * on P n' ⟨n.val - 24, by omega⟩

/-- What the kernel body computes for target i of a row, from its operand matrices. -/
def bodyRow (W : Fin 11 → Fin 23 → ℝ) (B : Fin 23 → ℝ) (W2 : Fin 8 → Fin 4 → ℝ) (B2 : Fin 4 → ℝ)
    (C : Fin 15 → Fin 28 → ℝ) (T : Fin 6 → Fin 24 → ℝ) (O : Fin 24 → Fin 4 → ℝ)
    (x : Fin 7 → ℝ) (h : Fin 4 → ℝ) (i : Fin 4) : ℝ :=
  let s : Fin 23 → ℝ := fun q => sg (∑ k, allIn x h k * W k q + B q)
  let cnd : Fin 15 → ℝ := fun c => |s ⟨c.val, by omega⟩|
  let h1 : Fin 8 → ℝ := fun q => 2 * s ⟨q.val + 15, by omega⟩ - 1
  let pls : ℝ := |∑ q, h1 q * W2 q i + B2 i|
  let gs : Fin 28 → ℝ := fun n => ∑ c, cnd c * C c n
  let tt : Fin 24 → ℝ := fun n => ∑ j, temps x h j * T j n
  let s1 : ℝ := ∑ n : Fin 24, (gs ⟨n.val, by omega⟩ * tt n) * O n i
  let s2 : ℝ := gs ⟨i.val + 24, by omega⟩
  min 3 (max (-1) (h i + (s1 - h i * s2) + pls))

/-- The kernel's new hidden temperature of target i: the body on the prepared matrices. -/
def kerRow (P : Params) (x : Fin 7 → ℝ) (h : Fin 4 → ℝ) (i : Fin 4) : ℝ :=
  bodyRow (wgp1 P) (bgp1 P) (pw2s P) (pb2s P) (comb P) tile (on P) x h i

/-! ## The argument arrays as real data -/

/-- The ten argument arrays hold the real data D: every float entry is that real number, and every entry of
    the adjacency table is the index adj i j < 15. -/
structure IsData (D : Data)
    (x0 : FVec Ideal ⟨2, ![1048576, 7]⟩ .f32) (x1 : FVec Ideal ⟨2, ![1048576, 4]⟩ .f32)
    (x2 : FVec Ideal ⟨2, ![11, 15]⟩ .f32) (x3 : FVec Ideal ⟨1, ![15]⟩ .f32)
    (x4 : FVec Ideal ⟨2, ![11, 8]⟩ .f32) (x5 : FVec Ideal ⟨1, ![8]⟩ .f32)
    (x6 : FVec Ideal ⟨2, ![8, 4]⟩ .f32) (x7 : FVec Ideal ⟨1, ![4]⟩ .f32)
    (x8 : FVec Ideal ⟨1, ![4]⟩ .f32) (x9 : IVec ⟨2, ![4, 6]⟩ 32) : Prop where
  h0 : ∀ (r : Fin 1048576) (k : Fin 7), x0 (ix2 r k) = (D.X0 r k : EReal)
  h1 : ∀ (r : Fin 1048576) (i : Fin 4), x1 (ix2 r i) = (D.X1 r i : EReal)
  h2 : ∀ (k : Fin 11) (c : Fin 15), x2 (ix2 k c) = (D.P.gW k c : EReal)
  h3 : ∀ (c : Fin 15), x3 (ix1 c) = (D.P.gb c : EReal)
  h4 : ∀ (k : Fin 11) (q : Fin 8), x4 (ix2 k q) = (D.P.pW1 k q : EReal)
  h5 : ∀ (q : Fin 8), x5 (ix1 q) = (D.P.pb1 q : EReal)
  h6 : ∀ (q : Fin 8) (i : Fin 4), x6 (ix2 q i) = (D.P.pW2 q i : EReal)
  h7 : ∀ (i : Fin 4), x7 (ix1 i) = (D.P.pb2 i : EReal)
  h8 : ∀ (i : Fin 4), x8 (ix1 i) = (D.P.caps i : EReal)
  h9 : ∀ (i : Fin 4) (j : Fin 6), x9 (ix2 i j) = BitVec.ofNat 32 (D.P.adj i j).val

end Cert.Tnn

end
-- ==== Proof.RealId.lean ====
/-
  The two row formulas are one function of the row.

  The kernel reaches the reference's formula through five rearrangements, each an identity of real numbers:

  * the fused affine map of width 23 is the conductance layer on its first fifteen columns and TWICE the
    perceptron's first layer on its last eight, so one logistic pass gives the conductances |σ(·)| and, through
    tanh y = 2σ(2y) − 1, the perceptron's hidden units;
  * a positive factor passes through an absolute value, |y·s| = s·|y|, so the step scale may be folded into the
    perceptron's last layer;
  * a product with a 0/1 matrix whose columns are indicators reads one entry: Σ_c g_c·[adj(n) = c] = g_{adj(n)};
  * the 24 flat positions n = 6a + b are the pairs (a, b) of a target and a temperature, so a sum over n that
    keeps the positions of target i is the sum over b at a = i;
  * Σ_j (t_j − h_i)·g_j = Σ_j g_j·t_j − h_i·Σ_j g_j.
-/
import proofs.«403158_j38749194944734_3_alg».proof.Proof.Spec
import Mathlib.Analysis.Complex.Trigonometric
import Mathlib.Logic.Equiv.Fin.Basic

noncomputable section

namespace Cert.Tnn

/-! ## The fused first layer: its first fifteen columns and its last eight -/

/-- Column c < 15 of the fused weights is column c of the conductance weights. -/
theorem wgp1_lo (P : Params) (k : Fin 11) (c : Fin 15) (hc : c.val < 23) :
    wgp1 P k ⟨c.val, hc⟩ = P.gW k c := by
  simp [wgp1]

/-- Entry c < 15 of the fused bias is entry c of the conductance bias. -/
theorem bgp1_lo (P : Params) (c : Fin 15) (hc : c.val < 23) :
    bgp1 P ⟨c.val, hc⟩ = P.gb c := by
  simp [bgp1]

/-- Column q + 15 of the fused weights is twice column q of the perceptron's first layer. -/
theorem wgp1_hi (P : Params) (k : Fin 11) (q : Fin 8) (hq : q.val + 15 < 23) :
    wgp1 P k ⟨q.val + 15, hq⟩ = 2 * P.pW1 k q := by
  simp [wgp1]

/-- Entry q + 15 of the fused bias is twice entry q of the perceptron's first bias. -/
theorem bgp1_hi (P : Params) (q : Fin 8) (hq : q.val + 15 < 23) :
    bgp1 P ⟨q.val + 15, hq⟩ = 2 * P.pb1 q := by
  simp [bgp1]

/-- On its first fifteen columns the fused layer followed by |σ| gives the conductances. -/
theorem fused_cond (P : Params) (x : Fin 7 → ℝ) (h : Fin 4 → ℝ) (c : Fin 15) (hc : c.val < 23) :
    |sg (∑ k, allIn x h k * wgp1 P k ⟨c.val, hc⟩ + bgp1 P ⟨c.val, hc⟩)| = cond P x h c := by
  simp only [wgp1_lo, bgp1_lo, cond]

/-- tanh through the logistic function: tanh y = (1 − e^{−2y}) / (1 + e^{−2y}) = 2σ(2y) − 1. -/
theorem tanh_eq_sg (y : ℝ) : Real.tanh y = 2 * sg (2 * y) - 1 := by
  have he : 0 < Real.exp y := Real.exp_pos y
  have h2 : Real.exp (-(2 * y)) = (Real.exp y)⁻¹ * (Real.exp y)⁻¹ := by
    rw [← Real.exp_neg, ← Real.exp_add]
    congr 1
    ring
  rw [Real.tanh_eq_sinh_div_cosh, Real.sinh_eq, Real.cosh_eq, sg, h2, Real.exp_neg]
  generalize Real.exp y = e at he
  have h1 : e + e⁻¹ ≠ 0 := by positivity
  have h3 : 1 + e⁻¹ * e⁻¹ ≠ 0 := by positivity
  field_simp
  ring

/-- On its last eight columns the doubled layer followed by 2σ − 1 gives the perceptron's hidden units:
    Σ_k a_k·(2·P_kq) + 2·p_q = 2·(Σ_k a_k·P_kq + p_q), and 2σ(2y) − 1 = tanh y. -/
theorem fused_tanh (P : Params) (x : Fin 7 → ℝ) (h : Fin 4 → ℝ) (q : Fin 8) (hq : q.val + 15 < 23) :
    2 * sg (∑ k, allIn x h k * wgp1 P k ⟨q.val + 15, hq⟩ + bgp1 P ⟨q.val + 15, hq⟩) - 1
      = Real.tanh (∑ k, allIn x h k * P.pW1 k q + P.pb1 q) := by
  have hd : ∑ k, allIn x h k * wgp1 P k ⟨q.val + 15, hq⟩ + bgp1 P ⟨q.val + 15, hq⟩
      = 2 * (∑ k, allIn x h k * P.pW1 k q + P.pb1 q) := by
    simp only [wgp1_hi, bgp1_hi]
    rw [mul_add, Finset.mul_sum]
    congr 1
    exact Finset.sum_congr rfl (fun k _ => by ring)
  rw [hd, tanh_eq_sg]

/-! ## The step scale folded into the last layer -/

/-- The step scale is positive. -/
theorem scale_pos (P : Params) (i : Fin 4) : 0 < scale P i := by
  unfold scale
  have := Real.exp_pos (P.caps i)
  positivity

/-- A positive factor passes through the absolute value: |Σ_q u_q·(W_q·s) + w·s| = s·|Σ_q u_q·W_q + w|. -/
theorem abs_scaled {s : ℝ} (hs : 0 < s) (u W : Fin 8 → ℝ) (w : ℝ) :
    |∑ q, u q * (W q * s) + w * s| = s * |∑ q, u q * W q + w| := by
  have hf : ∑ q, u q * (W q * s) + w * s = (∑ q, u q * W q + w) * s := by
    rw [add_mul, Finset.sum_mul]
    congr 1
    exact Finset.sum_congr rfl (fun q _ => by ring)
  rw [hf, abs_mul, abs_of_pos hs, mul_comm]

/-! ## Products with indicator matrices -/

/-- The gather: the one-hot matrix's column n has its single 1 in row adj (tgt n) (src n). -/
theorem sum_oh (P : Params) (g : Fin 15 → ℝ) (n : Fin 24) :
    ∑ c, g c * oh P c n = g (P.adj (tgt n) (src n)) := by
  simp [oh, Fin.val_inj]

/-- The tiling: column n of the tiling matrix has its single 1 in row src n. -/
theorem sum_tile (t : Fin 6 → ℝ) (n : Fin 24) :
    ∑ j, t j * tile j n = t (src n) := by
  simp [tile, Fin.val_inj]

/-- The first 24 columns of the 28-column matrix are the one-hot matrix. -/
theorem comb_lo (P : Params) (c : Fin 15) (n : Fin 24) (hn : n.val < 28) :
    comb P c ⟨n.val, hn⟩ = oh P c n := by
  simp [comb]

/-- Its last four columns are the one-hot matrix times the scaled target selector. -/
theorem comb_hi (P : Params) (c : Fin 15) (i : Fin 4) (hi : i.val + 24 < 28) :
    comb P c ⟨i.val + 24, hi⟩ = ∑ n : Fin 24, oh P c n * on P n i := by
  simp [comb]

/-! ## The 24 flat positions as pairs (target, temperature) -/

/-- A sum over the flat positions n = 6a + b is the double sum over a < 4 and b < 6. -/
theorem sum_flat (F : Fin 24 → ℝ) :
    ∑ n, F n = ∑ a : Fin 4, ∑ b : Fin 6, F ⟨b.val + 6 * a.val, by omega⟩ := by
  rw [← Equiv.sum_comp (finProdFinEquiv : Fin 4 × Fin 6 ≃ Fin 24) F, Fintype.sum_prod_type]
  rfl

/-- Position 6a + b belongs to target a … -/
theorem tgt_flat (a : Fin 4) (b : Fin 6) (hn : b.val + 6 * a.val < 24) :
    tgt ⟨b.val + 6 * a.val, hn⟩ = a := by
  apply Fin.ext
  show (b.val + 6 * a.val) / 6 = a.val
  omega

/-- … and to temperature b. -/
theorem src_flat (a : Fin 4) (b : Fin 6) (hn : b.val + 6 * a.val < 24) :
    src ⟨b.val + 6 * a.val, hn⟩ = b := by
  apply Fin.ext
  show (b.val + 6 * a.val) % 6 = b.val
  omega

/-- Summing over the flat positions against the scaled selector of target i keeps the six positions of
    target i: Σ_n f(tgt n, src n)·[tgt n = i]·s_i = s_i·Σ_b f(i, b). -/
theorem sum_on (P : Params) (f : Fin 4 → Fin 6 → ℝ) (i : Fin 4) :
    ∑ n : Fin 24, f (tgt n) (src n) * on P n i = scale P i * ∑ b, f i b := by
  have hrow : ∀ a : Fin 4,
      ∑ b : Fin 6, f a b * ((if a.val = i.val then (1 : ℝ) else 0) * scale P i)
        = if a = i then scale P i * ∑ b, f a b else 0 := by
    intro a
    by_cases ha : a = i
    · subst ha
      simp only [if_true, one_mul, Finset.mul_sum]
      exact Finset.sum_congr rfl (fun b _ => mul_comm _ _)
    · have hv : ¬ a.val = i.val := fun hv => ha (Fin.ext hv)
      simp only [if_neg hv, if_neg ha, zero_mul, mul_zero, Finset.sum_const_zero]
  rw [sum_flat]
  simp only [tgt_flat, src_flat, on, hrow]
  rw [Finset.sum_ite_eq']
  simp

/-- The last four columns of the 28-column matrix sum the gathered conductances of target i, scaled:
    Σ_c g_c·Σ_n [adj(n) = c]·[tgt n = i]·s_i = s_i·Σ_b g_{adj(i,b)}. -/
theorem sum_comb_hi (P : Params) (g : Fin 15 → ℝ) (i : Fin 4) :
    ∑ c, g c * ∑ n : Fin 24, oh P c n * on P n i = scale P i * ∑ b, g (P.adj i b) := by
  have hswap : ∑ c, g c * ∑ n : Fin 24, oh P c n * on P n i
      = ∑ n : Fin 24, (∑ c, g c * oh P c n) * on P n i := by
    simp only [Finset.mul_sum, Finset.sum_mul]
    rw [Finset.sum_comm]
    exact Finset.sum_congr rfl (fun n _ => Finset.sum_congr rfl (fun c _ => by ring))
  rw [hswap]
  simp only [sum_oh]
  exact sum_on P (fun a b => g (P.adj a b)) i

/-! ## The assembly -/

/-- Σ_j (t_j − h)·g_j = Σ_j g_j·t_j − h·Σ_j g_j, with the common positive factor s taken out. -/
theorem assemble (s hi L : ℝ) (t g : Fin 6 → ℝ) :
    hi + (s * ∑ j, g j * t j - hi * (s * ∑ j, g j)) + s * L
      = hi + s * ((∑ j, (t j - hi) * g j) + L) := by
  have hsplit : ∑ j, (t j - hi) * g j = ∑ j, g j * t j - hi * ∑ j, g j := by
    rw [Finset.mul_sum, ← Finset.sum_sub_distrib]
    exact Finset.sum_congr rfl (fun j _ => by ring)
  rw [hsplit]
  ring

/-- The kernel's row, through its prepared matrices, is the reference's row. -/
theorem kerRow_eq_refRow (P : Params) (x : Fin 7 → ℝ) (h : Fin 4 → ℝ) (i : Fin 4) :
    kerRow P x h i = refRow P x h i := by
  unfold kerRow bodyRow refRow
  -- one logistic pass gives the conductances and the hidden units; the indicator products read single entries
  simp only [fused_cond, fused_tanh, comb_lo, comb_hi, sum_oh, sum_tile]
  -- Σ_n g_{adj(n)}·t_{src n}·[tgt n = i]·s_i = s_i·Σ_j g_{adj(i,j)}·t_j
  have e1 : ∑ n : Fin 24, cond P x h (P.adj (tgt n) (src n)) * temps x h (src n) * on P n i
      = scale P i * ∑ j, cond P x h (P.adj i j) * temps x h j :=
    sum_on P (fun a b => cond P x h (P.adj a b) * temps x h b) i
  -- the extra four columns: s_i·Σ_j g_{adj(i,j)}
  have e2 : ∑ c, cond P x h c * ∑ n : Fin 24, oh P c n * on P n i
      = scale P i * ∑ j, cond P x h (P.adj i j) :=
    sum_comb_hi P (cond P x h) i
  -- the scale comes out of the power loss
  have e3 : |∑ q, Real.tanh (∑ k, allIn x h k * P.pW1 k q + P.pb1 q) * pw2s P q i + pb2s P i|
      = scale P i * |∑ q, Real.tanh (∑ k, allIn x h k * P.pW1 k q + P.pb1 q) * P.pW2 q i + P.pb2 i| :=
    abs_scaled (scale_pos P i) (fun q => Real.tanh (∑ k, allIn x h k * P.pW1 k q + P.pb1 q))
      (fun q => P.pW2 q i) (P.pb2 i)
  rw [e1, e2, e3, assemble (scale P i) (h i) _ (temps x h) (fun j => cond P x h (P.adj i j))]

end Cert.Tnn

end
-- ==== Proof.Consts.lean ====
/-
  The float literals of the two programs as real numbers, and how the coercion from the reals to the extended
  reals passes through finite sums, absolute values, maxima and minima.
-/
import Idealize.ShloMosaic.Lib.ValueIdx

noncomputable section

namespace Cert.Tnn

open Idealize.ShloMosaic

/-! ## The literals

Each is a sign, an exponent field and a fraction field; the value is sign · (2^23 + fraction) · 2^(exponent − 150). -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_negone : Ideal.ofBits .f32 0xBF800000#32 = ((-1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

/-! ## The coercion -/

/-- A finite sum of reals, taken in the extended reals, is the real sum. -/
theorem coe_sum {ι : Type} [Fintype ι] (f : ι → ℝ) : (∑ k, ((f k : ℝ) : EReal)) = ((∑ k, f k : ℝ) : EReal) := by
  classical
  induction (Finset.univ : Finset ι) using Finset.induction_on with
  | empty => simp
  | insert a S ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_min (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- The absolute value as the programs spell it: the larger of a number and its negative. -/
theorem coe_abs (r : ℝ) : max (r : EReal) (-(r : EReal)) = ((|r| : ℝ) : EReal) := by
  rw [← EReal.coe_neg, coe_max, abs_eq_max_neg]

/-- The logistic function of a real, as the extended reals compute it. -/
theorem logistic_coe (r : ℝ) : Ideal.logistic (r : EReal) = (((1 + Real.exp (-r))⁻¹ : ℝ) : EReal) :=
  Ideal.logistic_coe r

end Cert.Tnn

end
-- ==== Proof.RefSide.lean ====
/-
  The reference's result array, read at row r and target i, is the reference's row formula of the real data.
-/
import proofs.«403158_j38749194944734_3_alg».proof.Proof.Spec
import proofs.«403158_j38749194944734_3_alg».proof.Proof.Consts
import proofs.«403158_j38749194944734_3_alg».proof.Proof.Gen.ReferenceIdeal.Read

noncomputable section

namespace Cert.Tnn

open Idealize.ShloMosaic Idealize.ShloMosaic.ValueIdx Cert.ReferenceIdeal

/-! ## The stages of the reference, one row at a time

Each lemma reads one intermediate array of the reference at explicit coordinates and says which real number of the
row it holds. -/

namespace RefSide

variable {D : Data}
    {x0 : FVec Ideal S1048576x7 .f32} {x1 : FVec Ideal S1048576x4 .f32} {x2 : FVec Ideal S11x15 .f32}
    {x3 : FVec Ideal S15 .f32} {x4 : FVec Ideal S11x8 .f32} {x5 : FVec Ideal S8 .f32} {x6 : FVec Ideal S8x4 .f32}
    {x7 x8 : FVec Ideal S4 .f32} {x9 : IVec S4x6 32}

/-- The joined array (inputs, then hidden temperatures) at (r, k) is entry k of the row's eleven-vector. -/
theorem allIn_value (hD : IsData D x0 x1 x2 x3 x4 x5 x6 x7 x8 x9) (r : Fin 1048576) (k : Fin 11) :
    Read.val_main_v2 (F := Ideal) x0 x1 (ix2 r k) = ((allIn (D.X0 r) (D.X1 r) k : ℝ) : EReal) := by
  unfold Read.val_main_v2 allIn
  by_cases hk : k.val < 7
  · rw [dif_pos hk]
    refine (concatenate_pair_apply_left 1 x0 x1 _ (ix2 r k) rfl (ix2 r ⟨k.val, hk⟩) ?_).trans (hD.h0 r ⟨k.val, hk⟩)
    intro b
    match b with
    | ⟨0, _⟩ => rfl
    | ⟨1, _⟩ => rfl
  · rw [dif_neg hk]
    refine (concatenate_pair_apply_right 1 x0 x1 _ (ix2 r k) rfl rfl (ix2 r ⟨k.val - 7, by omega⟩) ?_ ?_).trans (hD.h1 r _)
    · intro b hb
      match b with
      | ⟨0, _⟩ => rfl
      | ⟨1, _⟩ => exact absurd rfl hb
    · show (k.val - 7) + 7 = k.val
      omega

/-- The joined array (hidden temperatures, then the first two inputs) at (r, j) is temperature j of the row. -/
theorem temps_value (hD : IsData D x0 x1 x2 x3 x4 x5 x6 x7 x8 x9) (r : Fin 1048576) (j : Fin 6) :
    Read.val_main_v1 (F := Ideal) x0 x1 (ix2 r j) = ((temps (D.X0 r) (D.X1 r) j : ℝ) : EReal) := by
  unfold Read.val_main_v1 temps
  by_cases hj : j.val < 4
  · rw [dif_pos hj]
    refine (concatenate_pair_apply_left 1 x1 _ _ (ix2 r j) rfl (ix2 r ⟨j.val, hj⟩) ?_).trans (hD.h1 r ⟨j.val, hj⟩)
    intro b
    match b with
    | ⟨0, _⟩ => rfl
    | ⟨1, _⟩ => rfl
  · rw [dif_neg hj]
    refine (concatenate_pair_apply_right (s₂ := S1048576x2) 1 x1 (Read.val_main_v0 (F := Ideal) x0) _ (ix2 r j) rfl rfl
      (ix2 r (⟨j.val - 4, by omega⟩ : Fin 2)) ?_ ?_).trans ?_
    · intro b hb
      match b with
      | ⟨0, _⟩ => rfl
      | ⟨1, _⟩ => exact absurd rfl hb
    · show (j.val - 4) + 4 = j.val
      omega
    · rw [Read.val_main_v0_apply]
      refine Eq.trans (congrArg x0 ?_) (hD.h0 r ⟨j.val - 4, by omega⟩)
      funext a
      match a with
      | ⟨0, _⟩ => rfl
      | ⟨1, _⟩ => rfl

/-- The pre-activation of conductance c of row r. -/
theorem condPre_value (hD : IsData D x0 x1 x2 x3 x4 x5 x6 x7 x8 x9) (r : Fin 1048576) (c : Fin 15) :
    Read.val_main_v6 (F := Ideal) x0 x1 x2 x3 (ix2 r c)
      = ((∑ k, allIn (D.X0 r) (D.X1 r) k * D.P.gW k c + D.P.gb c : ℝ) : EReal) := by
  have el : ∀ k : Fin 11, Read.lidx_main_v3 (ix2 r c) k = ix2 r k := fun k =>
    funext fun a => Fin.ext (by match a with | ⟨0, _⟩ => rfl | ⟨1, _⟩ => rfl)
  have er : ∀ k : Fin 11, Read.ridx_main_v3 (ix2 r c) k = ix2 k c := fun k =>
    funext fun a => Fin.ext (by match a with | ⟨0, _⟩ => rfl | ⟨1, _⟩ => rfl)
  have eb : Read.idx_main_v4 (Read.idx_main_v5 (ix2 r c)) = ix1 c :=
    funext fun a => Fin.ext (by match a with | ⟨0, _⟩ => rfl)
  rw [Read.val_main_v6_apply, Read.val_main_v3_apply, Read.val_main_v5_apply, Read.val_main_v4_apply, eb, hD.h3]
  simp only [el, er, allIn_value hD, hD.h2, Ideal.addf_def, ← EReal.coe_mul]
  rw [coe_sum, ← EReal.coe_add]

/-- Conductance c of row r. -/
theorem cond_value (hD : IsData D x0 x1 x2 x3 x4 x5 x6 x7 x8 x9) (r : Fin 1048576) (c : Fin 15) :
    Read.val_main_v13 (F := Ideal) x0 x1 x2 x3 (ix2 r c) = ((cond D.P (D.X0 r) (D.X1 r) c : ℝ) : EReal) := by
  rw [Read.val_main_v13_apply, Read.val_main_v12_apply, Read.val_main_v11_apply, Read.val_main_cst_0_apply,
    Read.val_main_v10_apply, Read.val_main_v9_apply, Read.val_main_cst_apply, Read.val_main_v8_apply,
    Read.val_main_v7_apply, condPre_value hD]
  simp only [Ideal.hostAbsf_def, Ideal.absf_def, Ideal.hostDivf_def, Ideal.ofBits_def, Ideal.addf_def,
    Ideal.hostUnary_exp_def, Ideal.hostNegf_def, Ideal.negf_def, ofBits_one]
  rw [← EReal.coe_neg, Ideal.exp_coe, ← EReal.coe_add,
    Ideal.div_coe (ne_of_gt (add_pos_of_pos_of_nonneg one_pos (Real.exp_pos _).le)), ← EReal.coe_mul, coe_abs]
  unfold cond sg
  rw [one_mul, one_div]

/-- Hidden unit q of the perceptron of row r. -/
theorem hidden_value (hD : IsData D x0 x1 x2 x3 x4 x5 x6 x7 x8 x9) (r : Fin 1048576) (q : Fin 8) :
    Read.val_main_v18 (F := Ideal) x0 x1 x4 x5 (ix2 r q)
      = ((Real.tanh (∑ k, allIn (D.X0 r) (D.X1 r) k * D.P.pW1 k q + D.P.pb1 q) : ℝ) : EReal) := by
  have el : ∀ k : Fin 11, Read.lidx_main_v14 (ix2 r q) k = ix2 r k := fun k =>
    funext fun a => Fin.ext (by match a with | ⟨0, _⟩ => rfl | ⟨1, _⟩ => rfl)
  have er : ∀ k : Fin 11, Read.ridx_main_v14 (ix2 r q) k = ix2 k q := fun k =>
    funext fun a => Fin.ext (by match a with | ⟨0, _⟩ => rfl | ⟨1, _⟩ => rfl)
  have eb : Read.idx_main_v15 (Read.idx_main_v16 (ix2 r q)) = ix1 q :=
    funext fun a => Fin.ext (by match a with | ⟨0, _⟩ => rfl)
  rw [Read.val_main_v18_apply, Read.val_main_v17_apply, Read.val_main_v14_apply, Read.val_main_v16_apply,
    Read.val_main_v15_apply, eb, hD.h5]
  simp only [el, er, allIn_value hD, hD.h4, Ideal.addf_def, Ideal.hostUnary_tanh_def, ← EReal.coe_mul]
  rw [coe_sum, ← EReal.coe_add, Ideal.tanh_coe]

/-- The power loss of target i of row r. -/
theorem loss_value (hD : IsData D x0 x1 x2 x3 x4 x5 x6 x7 x8 x9) (r : Fin 1048576) (i : Fin 4) :
    Read.val_main_v23 (F := Ideal) x0 x1 x4 x5 x6 x7 (ix2 r i)
      = ((|∑ q, Real.tanh (∑ k, allIn (D.X0 r) (D.X1 r) k * D.P.pW1 k q + D.P.pb1 q) * D.P.pW2 q i + D.P.pb2 i| : ℝ) : EReal) := by
  have el : ∀ q : Fin 8, Read.lidx_main_v19 (ix2 r i) q = ix2 r q := fun q =>
    funext fun a => Fin.ext (by match a with | ⟨0, _⟩ => rfl | ⟨1, _⟩ => rfl)
  have er : ∀ q : Fin 8, Read.ridx_main_v19 (ix2 r i) q = ix2 q i := fun q =>
    funext fun a => Fin.ext (by match a with | ⟨0, _⟩ => rfl | ⟨1, _⟩ => rfl)
  have eb : Read.idx_main_v20 (Read.idx_main_v21 (ix2 r i)) = ix1 i :=
    funext fun a => Fin.ext (by match a with | ⟨0, _⟩ => rfl)
  rw [Read.val_main_v23_apply, Read.val_main_v22_apply, Read.val_main_v19_apply, Read.val_main_v21_apply,
    Read.val_main_v20_apply, eb, hD.h7]
  simp only [el, er, hidden_value hD, hD.h6, Ideal.addf_def, Ideal.hostAbsf_def, Ideal.absf_def, ← EReal.coe_mul]
  rw [coe_sum, ← EReal.coe_add, coe_abs]

/-- A table entry below 15, as a 32-bit word, is not negative as a signed number. -/
theorem word_not_neg : ∀ n : Fin 15, IntOp.cmpi .slt (BitVec.ofNat 32 n.val) 0#32 = 0#1 := by decide

/-- A table entry below 15, read signed off its word and clamped into [0, 14], is itself. -/
theorem word_clamp : ∀ n : Fin 15, min (BitVec.ofNat 32 n.val).toInt.toNat (15 - 1) = n.val := by decide

/-- The start index the gather reads for target i and temperature j is the table's entry. -/
theorem start_value (hD : IsData D x0 x1 x2 x3 x4 x5 x6 x7 x8 x9) (i : Fin 4) (j : Fin 6) :
    Read.val_main_v29 (F := Ideal) x9 (ix3 i j (0 : Fin 1)) = BitVec.ofNat 32 (D.P.adj i j).val := by
  have e : Read.idx_main_v29 (ix3 i j (0 : Fin 1)) = ix2 i j :=
    funext fun a => Fin.ext (by match a with | ⟨0, _⟩ => rfl | ⟨1, _⟩ => rfl)
  rw [Read.val_main_v29_apply, e, Read.val_main_v28_apply, Read.val_main_v25_apply, Read.val_main_v24_apply,
    Read.val_main_c_apply, hD.h9, word_not_neg, select_zero]

/-- The gathered conductance at (r, i, j) is the row's conductance number adj i j. -/
theorem gather_value (hD : IsData D x0 x1 x2 x3 x4 x5 x6 x7 x8 x9) (r : Fin 1048576) (i : Fin 4) (j : Fin 6) :
    Read.val_main_v30 (F := Ideal) x0 x1 x2 x3 x9 (ix3 r i j)
      = Read.val_main_v13 (F := Ideal) x0 x1 x2 x3 (ix2 r (D.P.adj i j)) := by
  unfold Read.val_main_v30 Host.gather
  congr 1
  funext a
  refine Fin.ext ?_
  match a with
  | ⟨0, _⟩ =>
    show gather_S1048576x15_S4x6x1_S1048576x4x6_0_1_n_n_1_2_10485761.start (ix3 r i j) _ 0 + gather_S1048576x15_S4x6x1_S1048576x4x6_0_1_n_n_1_2_10485761.batchCoord (ix3 r i j) 0 + gather_S1048576x15_S4x6x1_S1048576x4x6_0_1_n_n_1_2_10485761.offCoord (ix3 r i j) 0 = r.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show gather_S1048576x15_S4x6x1_S1048576x4x6_0_1_n_n_1_2_10485761.start (ix3 r i j) _ 1 + gather_S1048576x15_S4x6x1_S1048576x4x6_0_1_n_n_1_2_10485761.batchCoord (ix3 r i j) 1 + gather_S1048576x15_S4x6x1_S1048576x4x6_0_1_n_n_1_2_10485761.offCoord (ix3 r i j) 1 = (D.P.adj i j).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1048576x15_S4x6x1_S1048576x4x6_0_1_n_n_1_2_10485761.startIndexMap from List.mem_singleton.mpr rfl)]
    have hsi : gather_S1048576x15_S4x6x1_S1048576x4x6_0_1_n_n_1_2_10485761.siIdx (ix3 r i j) ⟨List.idxOf (1 : Fin 2) gather_S1048576x15_S4x6x1_S1048576x4x6_0_1_n_n_1_2_10485761.startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi, start_value hD]
    exact word_clamp (D.P.adj i j)

/-- The heat flow into target i of row r: the sum over the six temperatures of the difference times the
    conductance that links them. -/
theorem flow_value (hD : IsData D x0 x1 x2 x3 x4 x5 x6 x7 x8 x9) (r : Fin 1048576) (i : Fin 4) :
    Read.val_main_v37 (F := Ideal) x0 x1 x2 x3 x9 (ix2 r i)
      = ((∑ j, (temps (D.X0 r) (D.X1 r) j - D.X1 r i) * cond D.P (D.X0 r) (D.X1 r) (D.P.adj i j) : ℝ) : EReal) := by
  have e37 : ∀ k : Fin 6, Read.idx_main_v37 (ix2 r i) k = ix3 r i k := fun k =>
    funext fun a => Fin.ext (by match a with | ⟨0, _⟩ => rfl | ⟨1, _⟩ => rfl | ⟨2, _⟩ => rfl)
  have et : ∀ k : Fin 6, Read.idx_main_v31 (Read.idx_main_v33 (ix3 r i k)) = ix2 r k := fun k =>
    funext fun a => Fin.ext (by match a with | ⟨0, _⟩ => rfl | ⟨1, _⟩ => rfl)
  have eh : ∀ k : Fin 6, Read.idx_main_v32 (Read.idx_main_v34 (ix3 r i k)) = ix2 r i := fun k =>
    funext fun a => Fin.ext (by match a with | ⟨0, _⟩ => rfl | ⟨1, _⟩ => rfl)
  rw [Read.val_main_v37_apply, Read.val_main_cst_2_apply]
  simp only [e37, Read.val_main_v36_apply, Read.val_main_v35_apply, Read.val_main_v33_apply, Read.val_main_v31_apply,
    Read.val_main_v34_apply, Read.val_main_v32_apply, et, eh, temps_value hD, hD.h1, gather_value hD, cond_value hD,
    Ideal.ofBits_def, ofBits_zero, Ideal.mulf_def, Ideal.subf_def, ← EReal.coe_sub, ← EReal.coe_mul]
  rw [coe_sum, EReal.coe_zero, zero_add]

/-- The step scale of target i. -/
theorem scale_value (hD : IsData D x0 x1 x2 x3 x4 x5 x6 x7 x8 x9) (r : Fin 1048576) (i : Fin 4) :
    Read.val_main_v43 (F := Ideal) x8 (ix2 r i) = ((scale D.P i : ℝ) : EReal) := by
  have e : Read.idx_main_v42 (Read.idx_main_v43 (ix2 r i)) = ix1 i :=
    funext fun a => Fin.ext (by match a with | ⟨0, _⟩ => rfl)
  rw [Read.val_main_v43_apply, Read.val_main_v42_apply, e, Read.val_main_v40_apply, Read.val_main_v39_apply,
    Read.val_main_cst_3_apply, Read.val_main_v38_apply, hD.h8]
  simp only [Ideal.ofBits_def, ofBits_half, Ideal.mulf_def, Ideal.hostUnary_exp_def, Ideal.exp_coe, ← EReal.coe_mul]
  rfl

end RefSide

theorem ref_value {D : Data}
    {x0 : FVec Ideal S1048576x7 .f32} {x1 : FVec Ideal S1048576x4 .f32} {x2 : FVec Ideal S11x15 .f32}
    {x3 : FVec Ideal S15 .f32} {x4 : FVec Ideal S11x8 .f32} {x5 : FVec Ideal S8 .f32} {x6 : FVec Ideal S8x4 .f32}
    {x7 x8 : FVec Ideal S4 .f32} {x9 : IVec S4x6 32}
    (hD : IsData D x0 x1 x2 x3 x4 x5 x6 x7 x8 x9) (r : Fin 1048576) (i : Fin 4) :
    Cert.ReferenceIdeal.Read.val_main_v46 (F := Ideal) x0 x1 x2 x3 x4 x5 x6 x7 x8 x9 (ix2 r i)
      = ((refRow D.P (D.X0 r) (D.X1 r) i : ℝ) : EReal) := by
  rw [Read.val_main_v46_apply, Read.val_main_call0_v4_apply, Read.val_main_call0_v3_apply, Read.val_main_cst_5_apply,
    Read.val_main_call0_v2_apply, Read.val_main_call0_v1_apply, Read.val_main_call0_v0_apply, Read.val_main_cst_4_apply,
    Read.val_main_v45_apply, Read.val_main_v44_apply, Read.val_main_v41_apply, RefSide.scale_value hD, RefSide.flow_value hD,
    RefSide.loss_value hD, hD.h1]
  simp only [Ideal.ofBits_def, ofBits_three, ofBits_negone, Ideal.minimumf_def, Ideal.maximumf_def, Ideal.addf_def,
    Ideal.mulf_def, ← EReal.coe_add, ← EReal.coe_mul, coe_max, coe_min]
  rfl

end Cert.Tnn

end
-- ==== Proof.HostSide.lean ====
/-
  The seven operand matrices the kernel's program prepares before the launch, read at an index, are the
  prepared matrices of the real data.
-/
import proofs.«403158_j38749194944734_3_alg».proof.Proof.Spec
import proofs.«403158_j38749194944734_3_alg».proof.Proof.Consts
import proofs.«403158_j38749194944734_3_alg».proof.Proof.Gen.KernelIdeal.Frame
import Idealize.ShloMosaic.Lib.Pipeline.Value
import Idealize.ShloMosaic.Lib.ValueIdx
import Idealize.ShloMosaic.Lib.IdealHost
import Idealize.ShloMosaic.Lib.ValueLayout
import Idealize.ShloMosaic.PureOps.Ideal.Laws

noncomputable section

namespace Cert.Tnn

open Idealize.ShloMosaic Idealize.ShloMosaic.ValueIdx Idealize.ShloMosaic.TcCoe Idealize.SL.Sem
open Cert.KernelIdeal Cert.KernelIdeal.Gen

namespace HostSide

/-! ## Two pieces laid side by side, read at an index -/

section Layout
variable {α : Type}

/-- Two matrices side by side, read in a column of the first. -/
theorem cat2_left {a n1 n2 n : ℕ} (x₁ : (⟨2, ![a, n1]⟩ : Shape).Idx → α) (x₂ : (⟨2, ![a, n2]⟩ : Shape).Idx → α)
    (h : Shape.Concatenates [(⟨2, ![a, n1]⟩ : Shape), ⟨2, ![a, n2]⟩] ⟨2, ![a, n]⟩ 1) (k : Fin a) (q : Fin n) (hq : q.val < n1) :
    concatenate (⟨2, ![a, n]⟩ : Shape) 1 [⟨_, x₁⟩, ⟨_, x₂⟩] h (ix2 k q) = x₁ (ix2 k ⟨q.val, hq⟩) := by
  refine concatenate_pair_apply_left 1 x₁ x₂ h (ix2 k q) rfl (ix2 k ⟨q.val, hq⟩) (fun b => ?_)
  match b with
  | ⟨0, _⟩ => rfl
  | ⟨1, _⟩ => rfl

/-- Two matrices side by side, read in a column of the second. -/
theorem cat2_right {a n1 n2 n : ℕ} (x₁ : (⟨2, ![a, n1]⟩ : Shape).Idx → α) (x₂ : (⟨2, ![a, n2]⟩ : Shape).Idx → α)
    (h : Shape.Concatenates [(⟨2, ![a, n1]⟩ : Shape), ⟨2, ![a, n2]⟩] ⟨2, ![a, n]⟩ 1) (k : Fin a) (q : Fin n) (hq : ¬ q.val < n1)
    (hq2 : q.val - n1 < n2) :
    concatenate (⟨2, ![a, n]⟩ : Shape) 1 [⟨_, x₁⟩, ⟨_, x₂⟩] h (ix2 k q) = x₂ (ix2 k ⟨q.val - n1, hq2⟩) := by
  refine concatenate_pair_apply_right 1 x₁ x₂ h (ix2 k q) rfl rfl (ix2 k ⟨q.val - n1, hq2⟩) (fun b hb => ?_) ?_
  · match b with
    | ⟨0, _⟩ => rfl
    | ⟨1, _⟩ => exact absurd rfl hb
  · show (q.val - n1) + n1 = q.val
    omega

/-- Two vectors end to end, read in the first. -/
theorem cat1_left {n1 n2 n : ℕ} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (q : Fin n) (hq : q.val < n1) :
    concatenate (⟨1, ![n]⟩ : Shape) 0 [⟨_, x₁⟩, ⟨_, x₂⟩] h (ix1 q) = x₁ (ix1 ⟨q.val, hq⟩) := by
  refine concatenate_pair_apply_left 0 x₁ x₂ h (ix1 q) rfl (ix1 ⟨q.val, hq⟩) (fun b => ?_)
  match b with
  | ⟨0, _⟩ => rfl

/-- Two vectors end to end, read in the second. -/
theorem cat1_right {n1 n2 n : ℕ} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (q : Fin n) (hq : ¬ q.val < n1)
    (hq2 : q.val - n1 < n2) :
    concatenate (⟨1, ![n]⟩ : Shape) 0 [⟨_, x₁⟩, ⟨_, x₂⟩] h (ix1 q) = x₂ (ix1 ⟨q.val - n1, hq2⟩) := by
  refine concatenate_pair_apply_right 0 x₁ x₂ h (ix1 q) rfl rfl (ix1 ⟨q.val - n1, hq2⟩) (fun b hb => ?_) ?_
  · match b with
    | ⟨0, _⟩ => exact absurd rfl hb
  · show (q.val - n1) + n1 = q.val
    omega

end Layout

/-! ## The step scale and its broadcast over rows -/

/-- Half the exponential of a real entry, as the program computes the step scale. -/
theorem scale_read (caps : FVec Ideal S4 .f32) (h : S_.BroadcastsInDim S4 (![] : Fin 0 → Fin S4.rank)) (r : ℝ) (i : Fin 4)
    (hc : caps (ix1 i) = (r : EReal)) :
    mulf (broadcastInDim S4 ![] h (constant (F := Ideal) S_ .f32 0x3F000000#32)) (Host.exp caps) (ix1 i)
      = ((1 / 2 * Real.exp r : ℝ) : EReal) := by
  rw [mulf_apply, broadcastInDim_scalar_apply, constant_apply, ofBits_half]
  show ((1 / 2 : ℝ) : EReal) * Ideal.exp (caps (ix1 i)) = _
  rw [hc, Ideal.exp_coe, ← EReal.coe_mul]

/-- A vector made a one-row matrix and repeated down the rows reads the vector's entry of the column. -/
theorem bcast_rows {α : Type} {a n : ℕ} (hn : n ≠ 1) (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (i : Fin n) :
    broadcastInDim (⟨2, ![a, n]⟩ : Shape) ![0, 1] h2 (broadcastInDim (⟨2, ![1, n]⟩ : Shape) ![1] h1 v) (ix2 p i) = v (ix1 i) := by
  refine (broadcastInDim_apply _ h2 _ (ix2 p i) (ix2 (0 : Fin 1) i) (fun b => ?_)).trans
    (broadcastInDim_apply _ h1 v (ix2 (0 : Fin 1) i) (ix1 i) (fun b => ?_))
  · match b with
    | ⟨0, _⟩ => exact (if_pos rfl).symm
    | ⟨1, _⟩ => exact (if_neg hn).symm
  · match b with
    | ⟨0, _⟩ => exact (if_neg hn).symm

/-! ## The two literal tables -/

/-- The 6 by 24 table holds the word of one exactly where the flat position's temperature is the row. -/
theorem lit0_entry : ∀ (j : Fin 6) (n : Fin 24),
    lit0 (S6x24.rowMajor (ix2 j n)) = if n.val % 6 = j.val then 0x3F800000#32 else 0x00000000#32 := by
  decide +kernel

/-- The 24 by 4 table holds the word of one exactly where the flat position's target is the column. -/
theorem lit1_entry : ∀ (n : Fin 24) (i : Fin 4),
    lit1 (S24x4.rowMajor (ix2 n i)) = if n.val / 6 = i.val then 0x3F800000#32 else 0x00000000#32 := by
  decide +kernel

theorem tile_read (j : Fin 6) (n : Fin 24) :
    (FloatOps.ofBits (F := Ideal) .f32 (lit0 (S6x24.rowMajor (ix2 j n)))) = ((tile j n : ℝ) : EReal) := by
  rw [lit0_entry, Ideal.ofBits_def]
  unfold tile src
  by_cases h : n.val % 6 = j.val
  · rw [if_pos h, if_pos h, ofBits_one]
  · rw [if_neg h, if_neg h, ofBits_zero]

theorem ones_read (n : Fin 24) (i : Fin 4) :
    (FloatOps.ofBits (F := Ideal) .f32 (lit1 (S24x4.rowMajor (ix2 n i))))
      = (((if (tgt n).val = i.val then 1 else 0 : ℝ)) : EReal) := by
  rw [lit1_entry, Ideal.ofBits_def]
  unfold tgt
  by_cases h : n.val / 6 = i.val
  · rw [if_pos h, if_pos h, ofBits_one]
  · rw [if_neg h, if_neg h, ofBits_zero]

/-! ## The one-hot matrix of the gather -/

/-- Two indices below fifteen are equal as 32-bit words exactly when they are equal, and the comparison's bit, read
    as a number, is then one, else zero. -/
theorem word_eq_read (v c : ℕ) (hv : v < 15) (hc : c < 15) :
    FloatOps.uitofp (F := Ideal) .f32 (IntOp.cmpi .eq (BitVec.ofNat 32 v) (BitVec.ofNat 32 c))
      = (((if v = c then 1 else 0 : ℝ)) : EReal) := by
  show (((BitVec.ofBool (BitVec.ofNat 32 v == BitVec.ofNat 32 c)).toNat : ℝ) : EReal) = _
  by_cases h : v = c
  · subst h
    rw [if_pos rfl, beq_self_eq_true]
    show (((1 : ℕ) : ℝ) : EReal) = _
    rw [Nat.cast_one]
  · have hne : (BitVec.ofNat 32 v == BitVec.ofNat 32 c) = false := by
      rw [beq_eq_false_iff_ne]
      intro e
      apply h
      have e' := congrArg BitVec.toNat e
      rw [BitVec.toNat_ofNat, BitVec.toNat_ofNat] at e'
      omega
    rw [if_neg h, hne]
    show (((0 : ℕ) : ℝ) : EReal) = _
    rw [Nat.cast_zero]

/-- The one-hot matrix as the program builds it from the adjacency table: the table flattened to 24 entries,
    each compared with the fifteen conductance numbers, the bits made numbers, the whole transposed. -/
def ohT (A : IVec S4x6 32) : FVec Ideal S15x24 .f32 :=
  transpose S15x24 [1, 0]
    (uitofp .f32 (cmpi .eq
      (broadcastInDim S24x15 ![0, 1] Facts₀.bcast_S24x1_S24x15_0_1
        (broadcastInDim S24x1 ![0] Facts₀.bcast_S24_S24x1_0 (shapeCast S24 A Facts₀.shapeCasts_S4x6_S24)))
      (broadcastInDim S24x15 ![0, 1] Facts₀.bcast_S1x15_S24x15_0_1 (iotaInDim S1x15 32 1))))
    Facts₀.transposes_S24x15_S15x24_1_0

/-- The flattened table at position n is the table's entry of n's target and temperature. -/
theorem flat_read (A : IVec S4x6 32) (h : S4x6.ShapeCasts S24) (n : Fin 24) :
    shapeCast S24 A h (ix1 n) = A (ix2 (tgt n) (src n)) := by
  refine shapeCast_apply A h (ix1 n) (ix2 (tgt n) (src n)) ?_
  rw [Shape.rowMajor_val_two, Shape.rowMajor_val_one]
  show n.val / 6 * 6 + n.val % 6 = n.val
  omega

theorem ohT_read (A : IVec S4x6 32) (adj : Fin 4 → Fin 6 → Fin 15)
    (hA : ∀ i j, A (ix2 i j) = BitVec.ofNat 32 (adj i j).val) (c : Fin 15) (n : Fin 24) :
    ohT A (ix2 c n) = (((if (adj (tgt n) (src n)).val = c.val then 1 else 0 : ℝ)) : EReal) := by
  unfold ohT
  rw [transpose_ix2_apply]
  show FloatOps.uitofp (F := Ideal) .f32 (IntOp.cmpi .eq
    (broadcastInDim S24x15 ![0, 1] Facts₀.bcast_S24x1_S24x15_0_1
        (broadcastInDim S24x1 ![0] Facts₀.bcast_S24_S24x1_0 (shapeCast S24 A Facts₀.shapeCasts_S4x6_S24)) (ix2 n c))
    (broadcastInDim S24x15 ![0, 1] Facts₀.bcast_S1x15_S24x15_0_1 (iotaInDim S1x15 32 1) (ix2 n c))) = _
  have hL : broadcastInDim S24x15 ![0, 1] Facts₀.bcast_S24x1_S24x15_0_1
        (broadcastInDim S24x1 ![0] Facts₀.bcast_S24_S24x1_0 (shapeCast S24 A Facts₀.shapeCasts_S4x6_S24)) (ix2 n c)
      = BitVec.ofNat 32 (adj (tgt n) (src n)).val := by
    refine (broadcastInDim_apply _ Facts₀.bcast_S24x1_S24x15_0_1 _ (ix2 n c) (ix2 n (0 : Fin 1)) (fun b => ?_)).trans
      ((broadcastInDim_apply _ Facts₀.bcast_S24_S24x1_0 _ (ix2 n (0 : Fin 1)) (ix1 n) (fun b => ?_)).trans
        ((flat_read A _ n).trans (hA _ _)))
    · match b with
      | ⟨0, _⟩ => exact (if_neg (show ¬ (24 : ℕ) = 1 by decide)).symm
      | ⟨1, _⟩ => exact (if_pos rfl).symm
    · match b with
      | ⟨0, _⟩ => exact (if_neg (show ¬ (24 : ℕ) = 1 by decide)).symm
  have hR : broadcastInDim S24x15 ![0, 1] Facts₀.bcast_S1x15_S24x15_0_1 (iotaInDim S1x15 32 1) (ix2 n c)
      = BitVec.ofNat 32 c.val := by
    refine (broadcastInDim_apply _ Facts₀.bcast_S1x15_S24x15_0_1 _ (ix2 n c) (ix2 (0 : Fin 1) c) (fun b => ?_)).trans ?_
    · match b with
      | ⟨0, _⟩ => exact (if_pos rfl).symm
      | ⟨1, _⟩ => exact (if_neg (show ¬ (15 : ℕ) = 1 by decide)).symm
    · rfl
  rw [hL, hR]
  exact word_eq_read _ _ (adj (tgt n) (src n)).isLt c.isLt

/-! ## The scaled target sums, and the product of the one-hot matrix with them -/

/-- The 24 by 4 matrix of scaled target sums as the program builds it: the 0/1 table times the step scale of
    the column. -/
def onM (caps : FVec Ideal S4 .f32) : FVec Ideal S24x4 .f32 :=
  mulf (fun i => FloatOps.ofBits (F := Ideal) .f32 (lit1 (S24x4.rowMajor i)))
    (broadcastInDim S24x4 ![0, 1] Facts₀.bcast_S1x4_S24x4_0_1
      (broadcastInDim S1x4 ![1] Facts₀.bcast_S4_S1x4_1
        (mulf (broadcastInDim S4 ![] Facts₀.bcast_S_S4 (constant (F := Ideal) S_ .f32 0x3F000000#32))
          (Host.exp caps))))

theorem onM_read (caps : FVec Ideal S4 .f32) (P : Params) (hc : ∀ i, caps (ix1 i) = (P.caps i : EReal))
    (n : Fin 24) (i : Fin 4) : onM caps (ix2 n i) = ((on P n i : ℝ) : EReal) := by
  unfold onM
  rw [mulf_apply, bcast_rows (by decide), scale_read _ _ _ i (hc i)]
  show FloatOps.ofBits (F := Ideal) .f32 (lit1 (S24x4.rowMajor (ix2 n i))) * _ = _
  rw [ones_read, ← EReal.coe_mul]
  rfl

/-! The product's operand indices: at result index (g, i) and summation position n the left operand is read at
    (g, n) and the right one at (n, i). -/

theorem lhs_dot_0 (j : S15x4.Idx) (q : dot_S15x24_S24x4_S15x4_1_0_0_1_n_n.contr.Idx) :
    (dot_S15x24_S24x4_S15x4_1_0_0_1_n_n.lhsIdx j q 0).val = (j 0).val := by
  unfold DotDims.lhsIdx
  rw [dif_neg (show ¬(0 : Fin S15x24.rank) ∈ dot_S15x24_S24x4_S15x4_1_0_0_1_n_n.lhsBatch by decide),
    dif_pos (show (0 : Fin S15x24.rank) ∈ dot_S15x24_S24x4_S15x4_1_0_0_1_n_n.lhsNonContracting by decide)]
  rfl
theorem lhs_dot_1 (j : S15x4.Idx) (q : dot_S15x24_S24x4_S15x4_1_0_0_1_n_n.contr.Idx) :
    (dot_S15x24_S24x4_S15x4_1_0_0_1_n_n.lhsIdx j q 1).val = (q ⟨0, by decide⟩).val :=
  dot_S15x24_S24x4_S15x4_1_0_0_1_n_n.lhsIdx_val_of_single rfl j q
theorem rhs_dot_0 (j : S15x4.Idx) (q : dot_S15x24_S24x4_S15x4_1_0_0_1_n_n.contr.Idx) :
    (dot_S15x24_S24x4_S15x4_1_0_0_1_n_n.rhsIdx j q 0).val = (q ⟨0, by decide⟩).val :=
  dot_S15x24_S24x4_S15x4_1_0_0_1_n_n.rhsIdx_val_of_single rfl j q
theorem rhs_dot_1 (j : S15x4.Idx) (q : dot_S15x24_S24x4_S15x4_1_0_0_1_n_n.contr.Idx) :
    (dot_S15x24_S24x4_S15x4_1_0_0_1_n_n.rhsIdx j q 1).val = (j 1).val := by
  unfold DotDims.rhsIdx
  rw [dif_neg (show ¬(1 : Fin S24x4.rank) ∈ dot_S15x24_S24x4_S15x4_1_0_0_1_n_n.rhsBatch by decide),
    dif_pos (show (1 : Fin S24x4.rank) ∈ dot_S15x24_S24x4_S15x4_1_0_0_1_n_n.rhsNonContracting by decide)]
  rfl

/-- The 15 by 24 times 24 by 4 product at (g, i) is the sum over the 24 flat positions. -/
theorem dot_read (L : FVec Ideal S15x24 .f32) (R : FVec Ideal S24x4 .f32) (g : Fin 15) (i : Fin 4) :
    Host.dotGeneral (F := Ideal) dot_S15x24_S24x4_S15x4_1_0_0_1_n_n none L R (ix2 g i)
      = ∑ n : Fin 24, L (ix2 g n) * R (ix2 n i) := by
  simp only [Host.dotGeneral]
  rw [Ideal.dotGeneral_apply, ← Equiv.sum_comp (ValueIdx.contrEquiv1 dot_S15x24_S24x4_S15x4_1_0_0_1_n_n 24 rfl rfl).symm]
  refine Finset.sum_congr rfl fun k _ => ?_
  have hk := ValueIdx.contrEquiv1_symm_val dot_S15x24_S24x4_S15x4_1_0_0_1_n_n 24 rfl rfl k
  have el : dot_S15x24_S24x4_S15x4_1_0_0_1_n_n.lhsIdx (ix2 g i)
      ((ValueIdx.contrEquiv1 dot_S15x24_S24x4_S15x4_1_0_0_1_n_n 24 rfl rfl).symm k) = ix2 g k :=
    funext fun a => Fin.ext (by
      match a with
      | ⟨0, _⟩ => exact lhs_dot_0 _ _
      | ⟨1, _⟩ => exact (lhs_dot_1 _ _).trans hk)
  have er : dot_S15x24_S24x4_S15x4_1_0_0_1_n_n.rhsIdx (ix2 g i)
      ((ValueIdx.contrEquiv1 dot_S15x24_S24x4_S15x4_1_0_0_1_n_n 24 rfl rfl).symm k) = ix2 k i :=
    funext fun a => Fin.ext (by
      match a with
      | ⟨0, _⟩ => exact (rhs_dot_0 _ _).trans hk
      | ⟨1, _⟩ => exact rhs_dot_1 _ _)
  rw [el, er]

/-- The product of the one-hot matrix with the scaled target sums, entry by entry, is the real one. -/
theorem prod_read (A : IVec S4x6 32) (caps : FVec Ideal S4 .f32) (P : Params)
    (hA : ∀ i j, A (ix2 i j) = BitVec.ofNat 32 (P.adj i j).val) (hc : ∀ i, caps (ix1 i) = (P.caps i : EReal))
    (g : Fin 15) (i : Fin 4) :
    Host.dotGeneral (F := Ideal) dot_S15x24_S24x4_S15x4_1_0_0_1_n_n none (ohT A) (onM caps) (ix2 g i)
      = ((∑ n' : Fin 24, oh P g n' * on P n' i : ℝ) : EReal) := by
  rw [dot_read]
  refine (Finset.sum_congr rfl fun n' _ => ?_).trans (coe_sum fun n' : Fin 24 => oh P g n' * on P n' i)
  rw [ohT_read _ P.adj hA, onM_read _ P hc, ← EReal.coe_mul]
  rfl

end HostSide

open HostSide

variable (m : (ℓ : Loc nD τ sig) → Buf (Elt Ideal) ℓ) (c : Dev nD) {D : Data}
  (hD : IsData D (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9)))
include hD

theorem V_wgp1 (k : Fin 11) (q : Fin 23) : V m c main_v5 (ix2 k q) = ((wgp1 D.P k q : ℝ) : EReal) := by
  have e : (V m c main_v5 : S11x23.Idx → EReal) =
      concatenate S11x23 1 [⟨S11x15, m ((c : Thread nD τ).loc main_arg2)⟩,
        ⟨S11x8, mulf (broadcastInDim S11x8 ![] Facts₀.bcast_S_S11x8 (constant (F := Ideal) S_ .f32 0x40000000#32))
          (m ((c : Thread nD τ).loc main_arg4))⟩] Facts₀.concatenates_S11x15_S11x8_S11x23_d1 := by
    dsimp only [Gen.V]
    simp only [Gen.hostOps0, Gen.hostOps0_1, Gen.hostOps0_2, List.flatten_cons, List.flatten_nil, List.append_nil, List.cons_append, List.nil_append]
    after_results <;> rfl
  rw [e]
  unfold wgp1
  by_cases hq : q.val < 15
  · rw [dif_pos hq]
    exact (cat2_left _ _ _ k q hq).trans (hD.h2 k ⟨q.val, hq⟩)
  · rw [dif_neg hq]
    refine (cat2_right _ _ _ k q hq (by omega)).trans ?_
    rw [mulf_apply, broadcastInDim_scalar_apply, constant_apply, hD.h4, ofBits_two, ← EReal.coe_mul]

theorem V_bgp1 (q : Fin 23) : V m c main_v8 (ix1 q) = ((bgp1 D.P q : ℝ) : EReal) := by
  have e : (V m c main_v8 : S23.Idx → EReal) =
      concatenate S23 0 [⟨S15, m ((c : Thread nD τ).loc main_arg3)⟩,
        ⟨S8, mulf (broadcastInDim S8 ![] Facts₀.bcast_S_S8 (constant (F := Ideal) S_ .f32 0x40000000#32))
          (m ((c : Thread nD τ).loc main_arg5))⟩] Facts₀.concatenates_S15_S8_S23_d0 := by
    dsimp only [Gen.V]
    simp only [Gen.hostOps0, Gen.hostOps0_1, Gen.hostOps0_2, List.flatten_cons, List.flatten_nil, List.append_nil, List.cons_append, List.nil_append]
    after_results <;> rfl
  rw [e]
  unfold bgp1
  by_cases hq : q.val < 15
  · rw [dif_pos hq]
    exact (cat1_left _ _ _ q hq).trans (hD.h3 ⟨q.val, hq⟩)
  · rw [dif_neg hq]
    refine (cat1_right _ _ _ q hq (by omega)).trans ?_
    rw [mulf_apply, broadcastInDim_scalar_apply, constant_apply, hD.h5, ofBits_two, ← EReal.coe_mul]

theorem V_pw2s (q : Fin 8) (i : Fin 4) : V m c main_v11 (ix2 q i) = ((pw2s D.P q i : ℝ) : EReal) := by
  have e : (V m c main_v11 : S8x4.Idx → EReal) =
      mulf (m ((c : Thread nD τ).loc main_arg6))
        (broadcastInDim S8x4 ![0, 1] Facts₀.bcast_S1x4_S8x4_0_1
          (broadcastInDim S1x4 ![1] Facts₀.bcast_S4_S1x4_1
            (mulf (broadcastInDim S4 ![] Facts₀.bcast_S_S4 (constant (F := Ideal) S_ .f32 0x3F000000#32))
              (Host.exp (m ((c : Thread nD τ).loc main_arg8)))))) := by
    dsimp only [Gen.V]
    simp only [Gen.hostOps0, Gen.hostOps0_1, Gen.hostOps0_2, List.flatten_cons, List.flatten_nil, List.append_nil, List.cons_append, List.nil_append]
    after_results <;> rfl
  rw [e, mulf_apply, bcast_rows (by decide), scale_read _ _ _ i (hD.h8 i), hD.h6, ← EReal.coe_mul]
  rfl

theorem V_pb2s (i : Fin 4) : V m c main_v12 (ix1 i) = ((pb2s D.P i : ℝ) : EReal) := by
  have e : (V m c main_v12 : S4.Idx → EReal) =
      mulf (m ((c : Thread nD τ).loc main_arg7))
        (mulf (broadcastInDim S4 ![] Facts₀.bcast_S_S4 (constant (F := Ideal) S_ .f32 0x3F000000#32))
          (Host.exp (m ((c : Thread nD τ).loc main_arg8)))) := by
    dsimp only [Gen.V]
    simp only [Gen.hostOps0, Gen.hostOps0_1, Gen.hostOps0_2, List.flatten_cons, List.flatten_nil, List.append_nil, List.cons_append, List.nil_append]
    after_results <;> rfl
  rw [e, mulf_apply, scale_read _ _ _ i (hD.h8 i), hD.h7, ← EReal.coe_mul]
  rfl

theorem V_comb (g : Fin 15) (n : Fin 28) : V m c main_v20 (ix2 g n) = ((comb D.P g n : ℝ) : EReal) := by
  have e : (V m c main_v20 : S15x28.Idx → EReal) =
      concatenate S15x28 1 [⟨S15x24, ohT (m ((c : Thread nD τ).loc main_arg9))⟩,
        ⟨S15x4, Host.dotGeneral (F := Ideal) dot_S15x24_S24x4_S15x4_1_0_0_1_n_n none
          (ohT (m ((c : Thread nD τ).loc main_arg9))) (onM (m ((c : Thread nD τ).loc main_arg8)))⟩]
        Facts₀.concatenates_S15x24_S15x4_S15x28_d1 := by
    dsimp only [Gen.V]
    simp only [Gen.hostOps0, Gen.hostOps0_1, Gen.hostOps0_2, List.flatten_cons, List.flatten_nil, List.append_nil, List.cons_append, List.nil_append]
    after_results_simp <;> rfl
  rw [e]
  unfold comb
  by_cases hn : n.val < 24
  · rw [dif_pos hn]
    refine (cat2_left _ _ _ g n hn).trans ?_
    rw [ohT_read _ D.P.adj hD.h9]
    rfl
  · rw [dif_neg hn]
    exact (cat2_right _ _ _ g n hn (by omega)).trans (prod_read _ _ D.P hD.h9 hD.h8 g ⟨n.val - 24, by omega⟩)

theorem V_tile (j : Fin 6) (n : Fin 24) : V m c main_cst (ix2 j n) = ((tile j n : ℝ) : EReal) := by
  have e : (V m c main_cst : S6x24.Idx → EReal) =
      fun i => FloatOps.ofBits (F := Ideal) .f32 (lit0 (S6x24.rowMajor i)) := by
    dsimp only [Gen.V]
    simp only [Gen.hostOps0, Gen.hostOps0_1, Gen.hostOps0_2, List.flatten_cons, List.flatten_nil, List.append_nil, List.cons_append, List.nil_append]
    after_results <;> rfl
  rw [e]
  exact tile_read j n

theorem V_on (n : Fin 24) (i : Fin 4) : V m c main_v18 (ix2 n i) = ((on D.P n i : ℝ) : EReal) := by
  have e : (V m c main_v18 : S24x4.Idx → EReal) =
      mulf (fun i => FloatOps.ofBits (F := Ideal) .f32 (lit1 (S24x4.rowMajor i)))
        (broadcastInDim S24x4 ![0, 1] Facts₀.bcast_S1x4_S24x4_0_1
          (broadcastInDim S1x4 ![1] Facts₀.bcast_S4_S1x4_1
            (mulf (broadcastInDim S4 ![] Facts₀.bcast_S_S4 (constant (F := Ideal) S_ .f32 0x3F000000#32))
              (Host.exp (m ((c : Thread nD τ).loc main_arg8)))))) := by
    dsimp only [Gen.V]
    simp only [Gen.hostOps0, Gen.hostOps0_1, Gen.hostOps0_2, List.flatten_cons, List.flatten_nil, List.append_nil, List.cons_append, List.nil_append]
    after_results <;> rfl
  rw [e, mulf_apply, bcast_rows (by decide), scale_read _ _ _ i (hD.h8 i)]
  show FloatOps.ofBits (F := Ideal) .f32 (lit1 (S24x4.rowMajor (ix2 n i))) * _ = _
  rw [ones_read, ← EReal.coe_mul]
  rfl

end Cert.Tnn

end
-- ==== Proof.PreDecode.lean ====
/-
  Under the precondition the argument arrays are real data: every float entry is a real number, and every entry
  of the adjacency table is an index below 15.

  The precondition is a conjunction of ten all-tests. Nine say of a float array that every |x| is below +inf;
  an extended real with |x| < +inf is neither infinity, hence a real number. The tenth says of the table of words
  that every entry is at least 0 and below 15 as a signed number; such a word is non-negative, so it is the
  word of its own unsigned value, which is below 15. The real data are then chosen entry by entry.
-/
import proofs.«403158_j38749194944734_3_alg».proof.Proof.Spec
import proofs.«403158_j38749194944734_3_alg».proof.Defs
import Idealize.ShloMosaic.Lib.ReduceAll

noncomputable section

namespace Cert.Tnn

open Idealize.ShloMosaic Idealize.ShloMosaic.ValueIdx Idealize.ShloMosaic.TcCoe Idealize.SL.Sem
open Cert.KernelIdeal

namespace PreDecode

/-- The shape without axes has exactly one index. -/
local instance subsingleton_idx0 : Subsingleton (⟨0, ![]⟩ : Shape).Idx := ⟨fun a b => funext fun d => d.elim0⟩

/-- An extended real whose absolute value is below +inf is a real number. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  have hinf : Ideal.ofBits .f32 0x7F800000#32 = (⊤ : EReal) := by
    simp [Ideal.ofBits, Ideal.ieee]
  rw [hinf] at h
  change BitVec.ofBool (decide (max x (-x) < (⊤ : EReal))) = 1#1 at h
  induction x using EReal.rec with
  | bot => simp at h
  | top => simp at h
  | coe r => exact ⟨r, rfl⟩

/-- The all-test of one float array: when it comes out 1, every entry is a real number. -/
theorem real_of_all {s : Shape} (x : FVec Ideal s .f32)
    (hb : (⟨0, ![]⟩ : Shape).BroadcastsInDim s (![] : Fin 0 → Fin s.rank))
    {axes : List (Fin s.rank)} (hr : s.ReducesTo axes ⟨0, ![]⟩) (hS : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hS ix0 = 1#1) (i : s.Idx) : ∃ r : ℝ, x i = (r : EReal) :=
  real_of_abs_lt (x i) (Host.reduce_andi_all _ _ hr hS ix0 e i)

/-- A word that is at least 0 and below 15, both read signed, has an unsigned value below 15. -/
theorem lt15_of_cmp (w : BitVec 32) (h0 : IntOp.cmpi .sge w 0#32 = 1#1) (h15 : IntOp.cmpi .slt w 15#32 = 1#1) :
    w.toNat < 15 := by
  rw [IntOp.cmpi_sge] at h0
  rw [IntOp.cmpi_slt] at h15
  have e0 : (0#32 : BitVec 32).toInt = 0 := by decide
  have e15 : (15#32 : BitVec 32).toInt = 15 := by decide
  rw [e0] at h0
  rw [e15] at h15
  have := BitVec.toInt_eq_toNat_cond w
  have := w.isLt
  split at * <;> omega

/-- The all-test of the table of words: when it comes out 1, every entry has an unsigned value below 15. -/
theorem lt15_of_all {s : Shape} (x : IVec s 32)
    (hb : (⟨0, ![]⟩ : Shape).BroadcastsInDim s (![] : Fin 0 → Fin s.rank))
    {axes : List (Fin s.rank)} (hr : s.ReducesTo axes ⟨0, ![]⟩) (hS : 0 < (⟨0, ![]⟩ : Shape).numel)
    (e : Host.reduce IntOp.andi
      (andi (cmpi .sge x (broadcastInDim s ![] hb (constantI ⟨0, ![]⟩ 32 0#32)))
        (cmpi .slt x (broadcastInDim s ![] hb (constantI ⟨0, ![]⟩ 32 15#32))))
      (constantI ⟨0, ![]⟩ 1 1#1) hr hS ix0 = 1#1) (i : s.Idx) : (x i).toNat < 15 := by
  have h := Host.reduce_andi_all _ _ hr hS ix0 e i
  obtain ⟨h0, h15⟩ := IntOp.andi_eq_one.1 h
  exact lt15_of_cmp (x i) h0 h15

/-- A conjunction of two tests that comes out 1 had both tests at 1. -/
theorem both_of_andi {s : Shape} (a b : IVec s 1) (i : s.Idx) (h : andi a b i = 1#1) : a i = 1#1 ∧ b i = 1#1 :=
  IntOp.andi_eq_one.1 h

end PreDecode

open PreDecode

theorem data_of_pre [Cert.Pre_finite_inputs.Facts] (m : (ℓ : Loc nD τ sig) → Buf (Elt Ideal) ℓ)
    (hpre : Cert.Pre_KernelIdeal m) (c : Dev nD) :
    ∃ D : Data, IsData D (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9)) := by
  have e := congrFun (hpre c) ix0
  dsimp only [Cert.Pre_finite_inputs.fn, Cert.Pre_finite_inputs.fn_part1, Cert.Pre_finite_inputs.fn_part2] at e
  -- the ten tests, one by one
  obtain ⟨e, e9⟩ := both_of_andi _ _ _ e
  obtain ⟨e, e8⟩ := both_of_andi _ _ _ e
  obtain ⟨e, e7⟩ := both_of_andi _ _ _ e
  obtain ⟨e, e6⟩ := both_of_andi _ _ _ e
  obtain ⟨e, e5⟩ := both_of_andi _ _ _ e
  obtain ⟨e, e4⟩ := both_of_andi _ _ _ e
  obtain ⟨e, e3⟩ := both_of_andi _ _ _ e
  obtain ⟨e, e2⟩ := both_of_andi _ _ _ e
  obtain ⟨e0, e1⟩ := both_of_andi _ _ _ e
  -- the real entries of the nine float arrays, chosen entry by entry
  choose f0 hf0 using real_of_all _ _ _ _ e0
  choose f1 hf1 using real_of_all _ _ _ _ e1
  choose f2 hf2 using real_of_all _ _ _ _ e2
  choose f3 hf3 using real_of_all _ _ _ _ e3
  choose f4 hf4 using real_of_all _ _ _ _ e4
  choose f5 hf5 using real_of_all _ _ _ _ e5
  choose f6 hf6 using real_of_all _ _ _ _ e6
  choose f7 hf7 using real_of_all _ _ _ _ e7
  choose f8 hf8 using real_of_all _ _ _ _ e8
  have h9 := lt15_of_all _ _ _ _ e9
  refine ⟨{ X0 := fun r k => f0 (ix2 r k), X1 := fun r i => f1 (ix2 r i),
            P := { gW := fun k c => f2 (ix2 k c), gb := fun c => f3 (ix1 c), pW1 := fun k q => f4 (ix2 k q),
                   pb1 := fun q => f5 (ix1 q), pW2 := fun q i => f6 (ix2 q i), pb2 := fun i => f7 (ix1 i),
                   caps := fun i => f8 (ix1 i),
                   adj := fun i j => ⟨(m ((c : Thread nD τ).loc main_arg9) (ix2 i j)).toNat, h9 (ix2 i j)⟩ } }, ?_⟩
  exact { h0 := fun r k => hf0 (ix2 r k), h1 := fun r i => hf1 (ix2 r i), h2 := fun k c => hf2 (ix2 k c),
          h3 := fun c => hf3 (ix1 c), h4 := fun k q => hf4 (ix2 k q), h5 := fun q => hf5 (ix1 q),
          h6 := fun q i => hf6 (ix2 q i), h7 := fun i => hf7 (ix1 i), h8 := fun i => hf8 (ix1 i),
          h9 := fun i j => by
            show _ = BitVec.ofNat 32 (m ((c : Thread nD τ).loc main_arg9) (ix2 i j)).toNat
            rw [BitVec.ofNat_toNat, BitVec.setWidth_eq] }

end Cert.Tnn

end
-- ==== Proof.Matmul.lean ====
/-
  A matrix product into a zero accumulator, read at row p and column n, is the plain sum over the contracted
  axis: Σ_k l(p,k) · r(k,n). Stated once for every two-dimensional product that contracts the left operand's
  columns with the right operand's rows.
-/
import Idealize.ShloMosaic.Lib.ValueIdx
import Idealize.ShloMosaic.PureOps.Ideal.Laws

noncomputable section

namespace Cert.Tnn

open Idealize.ShloMosaic Idealize.ShloMosaic.ValueIdx

variable {sl sr so : Shape} (d : DotDims sl sr so)

/-- The left operand's free axis carries the result's coordinate b. -/
theorem lhsIdx_val_free (a : Fin sl.rank) (b : Fin so.rank) (hb : d.lhsBatch = []) (hn : d.lhsNonContracting = [a])
    (hbv : b.val = 0) (j : so.Idx) (k : d.contr.Idx) : (d.lhsIdx j k a).val = (j b).val := by
  have hnb : a ∉ d.lhsBatch := by rw [hb]; simp
  have hmem : a ∈ d.lhsNonContracting := by rw [hn]; simp
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hb, hn, hbv])

/-- The right operand's free axis carries the result's coordinate b. -/
theorem rhsIdx_val_free (a : Fin sr.rank) (b : Fin so.rank) (hb : d.rhsBatch = []) (hlb : d.lhsBatch = [])
    (a' : Fin sl.rank) (hln : d.lhsNonContracting = [a']) (hn : d.rhsNonContracting = [a])
    (hbv : b.val = 1) (j : so.Idx) (k : d.contr.Idx) : (d.rhsIdx j k a).val = (j b).val := by
  have hnb : a ∉ d.rhsBatch := by rw [hb]; simp
  have hmem : a ∈ d.rhsNonContracting := by rw [hn]; simp
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hn, hbv])

/-- The product at (p, n): the contraction's one-axis index set is Fin K, and on it the left operand is read at
    (p, k), the right at (k, n). -/
theorem matmul_zero_ix2 {M K N : Nat}
    (D : DotDims (⟨2, ![M, K]⟩ : Shape) ⟨2, ![K, N]⟩ ⟨2, ![M, N]⟩) (prec : Option ContractPrecision)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = K)
    (l : FVec Ideal ⟨2, ![M, K]⟩ .f32) (r : FVec Ideal ⟨2, ![K, N]⟩ .f32) (p : Fin M) (n : Fin N) :
    FloatOps.matmul D prec l r (constant (F := Ideal) ⟨2, ![M, N]⟩ .f32 0x00000000#32) (ix2 p n)
      = ∑ k : Fin K, l (ix2 p k) * r (ix2 k n) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p n) ((contrEquiv1 D K hr hs).symm k) = ix2 p k := funext fun a => Fin.ext (by
    match a with
    | ⟨0, _⟩ => exact lhsIdx_val_free D 0 0 hlb hln rfl _ _
    | ⟨1, _⟩ => exact (D.lhsIdx_val_of_single hlc _ _).trans hk)
  have er : D.rhsIdx (ix2 p n) ((contrEquiv1 D K hr hs).symm k) = ix2 k n := funext fun a => Fin.ext (by
    match a with
    | ⟨0, _⟩ => exact (D.rhsIdx_val_of_single hrc _ _).trans hk
    | ⟨1, _⟩ => exact rhsIdx_val_free D 1 1 hrb hlb 0 hln hrn rfl _ _)
  rw [el, er]

end Cert.Tnn

end
-- ==== Proof.Payload.lean ====
/-
  The kernel body's arithmetic, read at row p of a block and a column, for operands that hold real numbers.
-/
import proofs.«403158_j38749194944734_3_alg».proof.Proof.Spec
import proofs.«403158_j38749194944734_3_alg».proof.Proof.Consts
import proofs.«403158_j38749194944734_3_alg».proof.Proof.Matmul
import proofs.«403158_j38749194944734_3_alg».proof.Proof.Gen.KernelIdeal.Skeleton
import Idealize.ShloMosaic.Lib.Pipeline.Value
import Idealize.ShloMosaic.Lib.ValueLayout

noncomputable section

namespace Cert.Tnn

open Idealize.ShloMosaic Idealize.ShloMosaic.ValueIdx
open Cert.KernelIdeal Cert.KernelIdeal.Gen

/-! ## The five products of the body, each the plain sum over its contracted axis -/

theorem mm_first (l : FVec Ideal S8192x11 .f32) (r : FVec Ideal S11x23 .f32) (p : Fin 8192) (q : Fin 23) :
    matmul dot_S8192x11_S11x23_S8192x23_1_0_0_1_n_n none l r (constant S8192x23 .f32 0x00000000#32) (ix2 p q)
      = ∑ k : Fin 11, l (ix2 p k) * r (ix2 k q) :=
  matmul_zero_ix2 _ none rfl rfl rfl rfl rfl rfl rfl rfl l r p q

theorem mm_last (l : FVec Ideal S8192x8 .f32) (r : FVec Ideal S8x4 .f32) (p : Fin 8192) (i : Fin 4) :
    matmul dot_S8192x8_S8x4_S8192x4_1_0_0_1_n_n none l r (constant S8192x4 .f32 0x00000000#32) (ix2 p i)
      = ∑ k : Fin 8, l (ix2 p k) * r (ix2 k i) :=
  matmul_zero_ix2 _ none rfl rfl rfl rfl rfl rfl rfl rfl l r p i

theorem mm_gather (l : FVec Ideal S8192x15 .f32) (r : FVec Ideal S15x28 .f32) (p : Fin 8192) (n : Fin 28) :
    matmul dot_S8192x15_S15x28_S8192x28_1_0_0_1_n_n none l r (constant S8192x28 .f32 0x00000000#32) (ix2 p n)
      = ∑ k : Fin 15, l (ix2 p k) * r (ix2 k n) :=
  matmul_zero_ix2 _ none rfl rfl rfl rfl rfl rfl rfl rfl l r p n

theorem mm_tile (l : FVec Ideal S8192x6 .f32) (r : FVec Ideal S6x24 .f32) (p : Fin 8192) (n : Fin 24) :
    matmul dot_S8192x6_S6x24_S8192x24_1_0_0_1_n_n none l r (constant S8192x24 .f32 0x00000000#32) (ix2 p n)
      = ∑ k : Fin 6, l (ix2 p k) * r (ix2 k n) :=
  matmul_zero_ix2 _ none rfl rfl rfl rfl rfl rfl rfl rfl l r p n

theorem mm_seg (l : FVec Ideal S8192x24 .f32) (r : FVec Ideal S24x4 .f32) (p : Fin 8192) (i : Fin 4) :
    matmul dot_S8192x24_S24x4_S8192x4_1_0_0_1_n_n none l r (constant S8192x4 .f32 0x00000000#32) (ix2 p i)
      = ∑ k : Fin 24, l (ix2 p k) * r (ix2 k i) :=
  matmul_zero_ix2 _ none rfl rfl rfl rfl rfl rfl rfl rfl l r p i

/-- A bias vector laid out as one row and repeated over the rows of a block reads its entry of the column. -/
theorem bias_row {a b : Nat} (v : (⟨1, ![b]⟩ : Shape).Idx → EReal)
    (h1 : (⟨1, ![b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (q : Fin b) :
    broadcastTo ⟨2, ![a, b]⟩ (shapeCast ⟨2, ![1, b]⟩ (shapeCast ⟨1, ![b]⟩ v h1) h2) h3 (ix2 p q) = v (ix1 q) := by
  rw [broadcastTo_1b_ab_apply, shapeCast_self]
  refine (shapeCast_addUnit_apply ![b] v h2 (ix2 (0 : Fin 1) q)).trans (congrArg v (funext fun a => ?_))
  match a with
  | ⟨0, _⟩ => rfl

/-- A block of columns cut out of a matrix: column q of the cut is column q + off of the matrix. -/
theorem slice_cols {a b b' : Nat} (off : Nat) (x : (⟨2, ![a, b]⟩ : Shape).Idx → EReal)
    (h : (⟨2, ![a, b]⟩ : Shape).Slices ![0, off] ⟨2, ![a, b']⟩) (p : Fin a) (q : Fin b') (hq : q.val + off < b) :
    extractStridedSlice ⟨2, ![a, b']⟩ ![0, off] x h (ix2 p q) = x (ix2 p (⟨q.val + off, hq⟩ : Fin b)) :=
  extractStridedSlice_apply _ x h (ix2 p q) (ix2 p (⟨q.val + off, hq⟩ : Fin b)) (fun ax => by
    match ax with
    | ⟨0, _⟩ => show p.val = 0 + p.val; omega
    | ⟨1, _⟩ => show q.val + off = off + q.val; omega)

theorem absf_at {s : Shape} (x : FVec Ideal s .f32) (i : s.Idx) : absf x i = max (x i) (-(x i)) := rfl

section Body

variable (v0 : Vec Ideal S8192x7 .f32) (v1 : Vec Ideal S8192x4 .f32)
  (A : Fin 8192 → Fin 7 → ℝ) (H : Fin 8192 → Fin 4 → ℝ)
  (hv0 : ∀ (p : Fin 8192) (k : Fin 7), v0 (ix2 p k) = ((A p k : ℝ) : EReal))
  (hv1 : ∀ (p : Fin 8192) (i : Fin 4), v1 (ix2 p i) = ((H p i : ℝ) : EReal))

include hv0 hv1 in
/-- The row (x, h) of a block: the measured inputs beside the hidden temperatures. -/
theorem allIn_at (p : Fin 8192) (k : Fin 11) :
    concatenate S8192x11 1 [⟨S8192x7, v0⟩, ⟨S8192x4, v1⟩] concatenates_S8192x7_S8192x4_S8192x11_d1 (ix2 p k)
      = ((allIn (A p) (H p) k : ℝ) : EReal) := by
  unfold allIn
  split_ifs with hk
  · rw [concatenate_pair_apply_left 1 v0 v1 _ (ix2 p k) rfl (ix2 p (⟨k.val, hk⟩ : Fin 7))
      (fun b => by match b with | ⟨0, _⟩ => rfl | ⟨1, _⟩ => rfl), hv0]
  · rw [concatenate_pair_apply_right 1 v0 v1 _ (ix2 p k) rfl rfl (ix2 p (⟨k.val - 7, by omega⟩ : Fin 4))
      (fun b hb => by
        match b with
        | ⟨0, _⟩ => rfl
        | ⟨1, _⟩ => exact absurd rfl hb)
      (by show (k.val - 7) + 7 = k.val; omega), hv1]

variable (v3 : Vec Ideal S11x23 .f32) (v6 : Vec Ideal S23 .f32) (W : Fin 11 → Fin 23 → ℝ) (B : Fin 23 → ℝ)
  (hv3 : ∀ (k : Fin 11) (q : Fin 23), v3 (ix2 k q) = ((W k q : ℝ) : EReal))
  (hv6 : ∀ (q : Fin 23), v6 (ix1 q) = ((B q : ℝ) : EReal))

include hv0 hv1 hv3 hv6 in
/-- The fused first layer followed by the logistic function, at row p and column q. -/
theorem pay2_at (p : Fin 8192) (q : Fin 23) :
    k0_pay2 v0 v1 v3 v6 (ix2 p q) = ((sg (∑ k, allIn (A p) (H p) k * W k q + B q) : ℝ) : EReal) := by
  unfold k0_pay2
  show Ideal.logistic (_ + _) = _
  rw [mm_first, bias_row, hv6, shapeCast_self]
  simp only [allIn_at v0 v1 A H hv0 hv1, hv3, ← EReal.coe_mul, coe_sum, ← EReal.coe_add, logistic_coe]
  rfl

/-- The logistic layer of row p, over the reals. -/
def sR (A : Fin 8192 → Fin 7 → ℝ) (H : Fin 8192 → Fin 4 → ℝ) (W : Fin 11 → Fin 23 → ℝ) (B : Fin 23 → ℝ)
    (p : Fin 8192) (q : Fin 23) : ℝ := sg (∑ k, allIn (A p) (H p) k * W k q + B q)

variable (v19 : Vec Ideal S8x4 .f32) (v22 : Vec Ideal S4 .f32) (v28 : Vec Ideal S15x28 .f32)
  (v35 : Vec Ideal S6x24 .f32) (v38 : Vec Ideal S24x4 .f32)
  (W2 : Fin 8 → Fin 4 → ℝ) (B2 : Fin 4 → ℝ) (C : Fin 15 → Fin 28 → ℝ) (T : Fin 6 → Fin 24 → ℝ) (O : Fin 24 → Fin 4 → ℝ)
  (hv19 : ∀ (q : Fin 8) (i : Fin 4), v19 (ix2 q i) = ((W2 q i : ℝ) : EReal))
  (hv22 : ∀ (i : Fin 4), v22 (ix1 i) = ((B2 i : ℝ) : EReal))
  (hv28 : ∀ (c : Fin 15) (n : Fin 28), v28 (ix2 c n) = ((C c n : ℝ) : EReal))
  (hv35 : ∀ (j : Fin 6) (n : Fin 24), v35 (ix2 j n) = ((T j n : ℝ) : EReal))
  (hv38 : ∀ (n : Fin 24) (i : Fin 4), v38 (ix2 n i) = ((O n i : ℝ) : EReal))

include hv0 hv1 hv3 hv6 hv19 hv22 in
/-- The power loss: twice the logistic layer's last eight columns less one, through the last layer, in absolute value. -/
theorem pay3_at (p : Fin 8192) (i : Fin 4) :
    k0_pay3 v0 v1 v3 v6 v19 v22 (ix2 p i)
      = ((|∑ q : Fin 8, (2 * sR A H W B p ⟨q.val + 15, by omega⟩ - 1) * W2 q i + B2 i| : ℝ) : EReal) := by
  unfold k0_pay3
  rw [absf_at]
  show max (_ + _) (-(_ + _)) = _
  rw [mm_last, bias_row, hv22, shapeCast_self]
  have e : ∀ q : Fin 8, subf (mulf (broadcast S8192x8 (Scalar.ofBits (F := Ideal) .f32 0x40000000#32))
      (extractStridedSlice S8192x8 ![0, 15] (k0_pay2 v0 v1 v3 v6) slices_S8192x23_o0_15_S8192x8))
      (broadcast S8192x8 (Scalar.ofBits (F := Ideal) .f32 0x3F800000#32)) (ix2 p q)
      = ((2 * sR A H W B p ⟨q.val + 15, by omega⟩ - 1 : ℝ) : EReal) := fun q => by
    show Ideal.ofBits .f32 0x40000000#32 * extractStridedSlice S8192x8 ![0, 15] (k0_pay2 v0 v1 v3 v6) slices_S8192x23_o0_15_S8192x8 (ix2 p q)
      - Ideal.ofBits .f32 0x3F800000#32 = _
    rw [slice_cols 15 _ _ p q (by omega), pay2_at v0 v1 A H hv0 hv1 v3 v6 W B hv3 hv6, ofBits_two, ofBits_one,
      ← EReal.coe_mul, ← EReal.coe_sub]
    rfl
  simp only [e, hv19, ← EReal.coe_mul, coe_sum, ← EReal.coe_add, coe_abs]

include hv0 hv1 hv3 hv6 hv28 in
/-- The conductances (the logistic layer's first fifteen columns, in absolute value) through the 28-column matrix. -/
theorem pay4_at (p : Fin 8192) (n : Fin 28) :
    k0_pay4 v0 v1 v3 v6 v28 (ix2 p n)
      = ((∑ c : Fin 15, |sR A H W B p ⟨c.val, by omega⟩| * C c n : ℝ) : EReal) := by
  unfold k0_pay4
  rw [mm_gather, shapeCast_self]
  have e : ∀ c : Fin 15, absf (extractStridedSlice S8192x15 ![0, 0] (k0_pay2 v0 v1 v3 v6) slices_S8192x23_o0_0_S8192x15) (ix2 p c)
      = ((|sR A H W B p ⟨c.val, by omega⟩| : ℝ) : EReal) := fun c => by
    rw [absf_at, slice_cols 0 _ _ p c (by omega), pay2_at v0 v1 A H hv0 hv1 v3 v6 W B hv3 hv6, coe_abs]
    rfl
  simp only [e, hv28, ← EReal.coe_mul, coe_sum]

include hv0 hv1 hv3 hv6 hv28 in
/-- Its last four columns. -/
theorem pay5_at (p : Fin 8192) (i : Fin 4) :
    k0_pay5 v0 v1 v3 v6 v28 (ix2 p i)
      = ((∑ c : Fin 15, |sR A H W B p ⟨c.val, by omega⟩| * C c ⟨i.val + 24, by omega⟩ : ℝ) : EReal) := by
  unfold k0_pay5
  rw [slice_cols 24 _ _ p i (by omega), pay4_at v0 v1 A H hv0 hv1 v3 v6 W B hv3 hv6 v28 C hv28]

include hv0 hv1 in
/-- The six temperatures of a row: the hidden ones beside the first two measured ones. -/
theorem temps_at (p : Fin 8192) (j : Fin 6) :
    concatenate S8192x6 1 [⟨S8192x4, v1⟩, ⟨S8192x2, extractStridedSlice S8192x2 ![0, 0] v0 slices_S8192x7_o0_0_S8192x2⟩]
      concatenates_S8192x4_S8192x2_S8192x6_d1 (ix2 p j) = ((temps (A p) (H p) j : ℝ) : EReal) := by
  unfold temps
  split_ifs with hj
  · rw [concatenate_pair_apply_left (s₂ := S8192x2) 1 v1 (extractStridedSlice S8192x2 ![0, 0] v0 slices_S8192x7_o0_0_S8192x2) _ (ix2 p j) rfl (ix2 p (⟨j.val, hj⟩ : Fin 4))
      (fun b => by match b with | ⟨0, _⟩ => rfl | ⟨1, _⟩ => rfl), hv1]
  · rw [concatenate_pair_apply_right (s₂ := S8192x2) 1 v1 (extractStridedSlice S8192x2 ![0, 0] v0 slices_S8192x7_o0_0_S8192x2) _ (ix2 p j) rfl rfl (ix2 p (⟨j.val - 4, by omega⟩ : Fin 2))
      (fun b hb => by
        match b with
        | ⟨0, _⟩ => rfl
        | ⟨1, _⟩ => exact absurd rfl hb)
      (by show (j.val - 4) + 4 = j.val; omega), slice_cols 0 _ _ p _ (by show j.val - 4 + 0 < 7; omega), hv0]
    rfl

include hv0 hv1 hv3 hv6 hv28 hv35 in
/-- The gathered conductances times the repeated temperatures, over the 24 flat positions. -/
theorem pay6_at (p : Fin 8192) (n : Fin 24) :
    k0_pay6 v0 v1 v3 v6 v28 v35 (ix2 p n)
      = (((∑ c : Fin 15, |sR A H W B p ⟨c.val, by omega⟩| * C c ⟨n.val, by omega⟩)
          * (∑ j : Fin 6, temps (A p) (H p) j * T j n) : ℝ) : EReal) := by
  unfold k0_pay6
  show _ * _ = _
  rw [slice_cols 0 _ _ p n (by omega), pay4_at v0 v1 A H hv0 hv1 v3 v6 W B hv3 hv6 v28 C hv28, mm_tile]
  simp only [temps_at v0 v1 A H hv0 hv1, hv35, ← EReal.coe_mul, coe_sum]
  rfl

include hv0 hv1 hv3 hv6 hv19 hv22 hv28 hv35 hv38 in
/-- What the body stores at row p and target i: the body's row formula of the block's real rows. -/
theorem body_at (p : Fin 8192) (i : Fin 4) :
    k0_pay1 v1 (k0_pay3 v0 v1 v3 v6 v19 v22) (k0_pay5 v0 v1 v3 v6 v28) (k0_pay6 v0 v1 v3 v6 v28 v35) v38 (ix2 p i)
      = ((bodyRow W B W2 B2 C T O (A p) (H p) i : ℝ) : EReal) := by
  unfold k0_pay1
  show min _ (max _ ((_ + (_ - _ * _)) + _)) = _
  rw [mm_seg, shapeCast_self, pay3_at v0 v1 A H hv0 hv1 v3 v6 W B hv3 hv6 v19 v22 W2 B2 hv19 hv22,
    pay5_at v0 v1 A H hv0 hv1 v3 v6 W B hv3 hv6 v28 C hv28, hv1]
  simp only [pay6_at v0 v1 A H hv0 hv1 v3 v6 W B hv3 hv6 v28 v35 C T hv28 hv35, hv38, ← EReal.coe_mul, coe_sum,
    ← EReal.coe_sub, ← EReal.coe_add]
  show min (Ideal.ofBits .f32 0x40400000#32) (max (Ideal.ofBits .f32 0xBF800000#32) _) = _
  rw [ofBits_three, ofBits_negone, coe_max, coe_min]
  rfl

end Body

end Cert.Tnn

end
-- ==== Proof.Blocks.lean ====
/-
  From the blocks to the array. Grid point t handles rows 8192·t … 8192·t + 8191: it reads those rows of the two
  batch arrays, reads the seven prepared matrices whole, and writes those rows of the output. So the output array,
  after the run, holds at row r and target i the body's row formula of row r: the kernel's row.
-/
import proofs.«403158_j38749194944734_3_alg».proof.Proof.Payload
import proofs.«403158_j38749194944734_3_alg».proof.Proof.Gen.KernelIdeal.Value

noncomputable section

namespace Cert.Tnn

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD) (D : Data)

/-- What the region finds in its nine operands: the two batch arrays and the seven prepared matrices, as real data. -/
structure Prepared : Prop where
  x0 : ∀ (r : Fin 1048576) (k : Fin 7), V m c main_arg0 (ix2 r k) = ((D.X0 r k : ℝ) : EReal)
  x1 : ∀ (r : Fin 1048576) (i : Fin 4), V m c main_arg1 (ix2 r i) = ((D.X1 r i : ℝ) : EReal)
  w : ∀ (k : Fin 11) (q : Fin 23), V m c main_v5 (ix2 k q) = ((wgp1 D.P k q : ℝ) : EReal)
  b : ∀ (q : Fin 23), V m c main_v8 (ix1 q) = ((bgp1 D.P q : ℝ) : EReal)
  w2 : ∀ (q : Fin 8) (i : Fin 4), V m c main_v11 (ix2 q i) = ((pw2s D.P q i : ℝ) : EReal)
  b2 : ∀ (i : Fin 4), V m c main_v12 (ix1 i) = ((pb2s D.P i : ℝ) : EReal)
  cm : ∀ (g : Fin 15) (n : Fin 28), V m c main_v20 (ix2 g n) = ((comb D.P g n : ℝ) : EReal)
  tl : ∀ (j : Fin 6) (n : Fin 24), V m c main_cst (ix2 j n) = ((tile j n : ℝ) : EReal)
  o : ∀ (n : Fin 24) (i : Fin 4), V m c main_v18 (ix2 n i) = ((on D.P n i : ℝ) : EReal)

theorem zero1 : (![0] : Fin 1 → Nat) = fun _ => 0 := funext fun a => by fin_cases a; rfl
theorem zero2 : (![0, 0] : Fin 2 → Nat) = fun _ => 0 := funext fun a => by fin_cases a <;> rfl

/-- The printed index maps, decided over the 128 grid points: the batch windows and the output window are at block
    row t, every prepared matrix at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem N_eq : cfg0.N = 128 := rfl

/-- Row p of grid point t's blocks is row 8192·t + p of the batch. -/
def rowOf (t : Fin cfg0.N) (p : Fin 8192) : Fin 1048576 :=
  ⟨t.val * 8192 + p.val, by have h : t.val < 128 := t.isLt; have := p.isLt; omega⟩

variable {m c D} (hP : Prepared m c D)
include hP

theorem blk0_at (t : Fin cfg0.N) (p : Fin 8192) (k : Fin 7) :
    iblk m c 0 t (ix2 p k) = ((D.X0 (rowOf t p) k : ℝ) : EReal) := by
  show V m c main_arg0 (((cfg0.win 0).blk t).view.emb (ix2 p k)) = _
  have e : ((cfg0.win 0).blk t).view.emb (ix2 p k) = ix2 (rowOf t p) k := by
    obtain ⟨⟨e0, e1⟩, -⟩ := idx_facts t
    funext a; apply Fin.ext
    match a with
    | ⟨0, _⟩ => show win0_0.index t (0 : Fin 2) * 8192 + 1 * p.val = t.val * 8192 + p.val; rw [e0]; omega
    | ⟨1, _⟩ => show win0_0.index t (1 : Fin 2) * 7 + 1 * k.val = k.val; rw [e1]; omega
  rw [e, hP.x0]

theorem blk2_at (t : Fin cfg0.N) (k : Fin 11) (q : Fin 23) :
    iblk m c 2 t (ix2 k q) = ((wgp1 D.P k q : ℝ) : EReal) := by
  show V m c main_v5 (((cfg0.win 2).blk t).view.emb (ix2 k q)) = _
  have e : ((cfg0.win 2).blk t).view.emb (ix2 k q) = ix2 k q := by
    obtain ⟨-, -, -, ⟨e0, e1⟩, -⟩ := idx_facts t
    funext a; apply Fin.ext
    match a with
    | ⟨0, _⟩ => show win0_2.index t (0 : Fin 2) * 11 + 1 * k.val = k.val; rw [e0]; omega
    | ⟨1, _⟩ => show win0_2.index t (1 : Fin 2) * 23 + 1 * q.val = q.val; rw [e1]; omega
  rw [e, hP.w]

theorem blk3_at (t : Fin cfg0.N) (q : Fin 23) :
    iblk m c 3 t (ix1 q) = ((bgp1 D.P q : ℝ) : EReal) := by
  show V m c main_v8 (((cfg0.win 3).blk t).view.emb (ix1 q)) = _
  have e : ((cfg0.win 3).blk t).view.emb (ix1 q) = ix1 q := by
    obtain ⟨-, -, -, -, e0, -⟩ := idx_facts t
    funext a; apply Fin.ext
    match a with
    | ⟨0, _⟩ => show win0_3.index t (0 : Fin 1) * 23 + 1 * q.val = q.val; rw [e0]; omega
  rw [e, hP.b]

theorem blk1_at (t : Fin cfg0.N) (p : Fin 8192) (i : Fin 4) :
    iblk m c 1 t (ix2 p i) = ((D.X1 (rowOf t p) i : ℝ) : EReal) := by
  show V m c main_arg1 (((cfg0.win 1).blk t).view.emb (ix2 p i)) = _
  have e : ((cfg0.win 1).blk t).view.emb (ix2 p i) = ix2 (rowOf t p) i := by
    obtain ⟨-, ⟨e0, e1⟩, -⟩ := idx_facts t
    funext a; apply Fin.ext
    match a with
    | ⟨0, _⟩ => show win0_1.index t (0 : Fin 2) * 8192 + 1 * p.val = t.val * 8192 + p.val; rw [e0]; omega
    | ⟨1, _⟩ => show win0_1.index t (1 : Fin 2) * 4 + 1 * i.val = i.val; rw [e1]; omega
  rw [e, hP.x1]

theorem blk4_at (t : Fin cfg0.N) (q : Fin 8) (i : Fin 4) :
    iblk m c 4 t (ix2 q i) = ((pw2s D.P q i : ℝ) : EReal) := by
  show V m c main_v11 (((cfg0.win 4).blk t).view.emb (ix2 q i)) = _
  have e : ((cfg0.win 4).blk t).view.emb (ix2 q i) = ix2 q i := by
    obtain ⟨-, -, -, -, -, ⟨e0, e1⟩, -⟩ := idx_facts t
    funext a; apply Fin.ext
    match a with
    | ⟨0, _⟩ => show win0_4.index t (0 : Fin 2) * 8 + 1 * q.val = q.val; rw [e0]; omega
    | ⟨1, _⟩ => show win0_4.index t (1 : Fin 2) * 4 + 1 * i.val = i.val; rw [e1]; omega
  rw [e, hP.w2]

theorem blk5_at (t : Fin cfg0.N) (i : Fin 4) :
    iblk m c 5 t (ix1 i) = ((pb2s D.P i : ℝ) : EReal) := by
  show V m c main_v12 (((cfg0.win 5).blk t).view.emb (ix1 i)) = _
  have e : ((cfg0.win 5).blk t).view.emb (ix1 i) = ix1 i := by
    obtain ⟨-, -, -, -, -, -, e0, -⟩ := idx_facts t
    funext a; apply Fin.ext
    match a with
    | ⟨0, _⟩ => show win0_5.index t (0 : Fin 1) * 4 + 1 * i.val = i.val; rw [e0]; omega
  rw [e, hP.b2]

theorem blk6_at (t : Fin cfg0.N) (g : Fin 15) (n : Fin 28) :
    iblk m c 6 t (ix2 g n) = ((comb D.P g n : ℝ) : EReal) := by
  show V m c main_v20 (((cfg0.win 6).blk t).view.emb (ix2 g n)) = _
  have e : ((cfg0.win 6).blk t).view.emb (ix2 g n) = ix2 g n := by
    obtain ⟨-, -, -, -, -, -, -, ⟨e0, e1⟩, -⟩ := idx_facts t
    funext a; apply Fin.ext
    match a with
    | ⟨0, _⟩ => show win0_6.index t (0 : Fin 2) * 15 + 1 * g.val = g.val; rw [e0]; omega
    | ⟨1, _⟩ => show win0_6.index t (1 : Fin 2) * 28 + 1 * n.val = n.val; rw [e1]; omega
  rw [e, hP.cm]

theorem blk7_at (t : Fin cfg0.N) (j : Fin 6) (n : Fin 24) :
    iblk m c 7 t (ix2 j n) = ((tile j n : ℝ) : EReal) := by
  show V m c main_cst (((cfg0.win 7).blk t).view.emb (ix2 j n)) = _
  have e : ((cfg0.win 7).blk t).view.emb (ix2 j n) = ix2 j n := by
    obtain ⟨-, -, -, -, -, -, -, -, ⟨e0, e1⟩, -⟩ := idx_facts t
    funext a; apply Fin.ext
    match a with
    | ⟨0, _⟩ => show win0_7.index t (0 : Fin 2) * 6 + 1 * j.val = j.val; rw [e0]; omega
    | ⟨1, _⟩ => show win0_7.index t (1 : Fin 2) * 24 + 1 * n.val = n.val; rw [e1]; omega
  rw [e, hP.tl]

theorem blk8_at (t : Fin cfg0.N) (n : Fin 24) (i : Fin 4) :
    iblk m c 8 t (ix2 n i) = ((on D.P n i : ℝ) : EReal) := by
  show V m c main_v18 (((cfg0.win 8).blk t).view.emb (ix2 n i)) = _
  have e : ((cfg0.win 8).blk t).view.emb (ix2 n i) = ix2 n i := by
    obtain ⟨-, -, -, -, -, -, -, -, -, e0, e1⟩ := idx_facts t
    funext a; apply Fin.ext
    match a with
    | ⟨0, _⟩ => show win0_8.index t (0 : Fin 2) * 24 + 1 * n.val = n.val; rw [e0]; omega
    | ⟨1, _⟩ => show win0_8.index t (1 : Fin 2) * 4 + 1 * i.val = i.val; rw [e1]; omega
  rw [e, hP.o]

omit hP in
/-- The whole output array the kernel's program ends with: at row r and target i, the kernel's row. -/
def outArr (D : Data) : S1048576x4.Idx → EReal := fun idx =>
  ((kerRow D.P (D.X0 ⟨(idx 0).val, (idx 0).isLt⟩) (D.X1 ⟨(idx 0).val, (idx 0).isLt⟩) ⟨(idx 1).val, (idx 1).isLt⟩ : ℝ) : EReal)

/-- What grid point t writes back is its block of rows of that array. -/
theorem flushed_eq (t : Fin cfg0.N) :
    (dats m 0 c).flushed 9 t = ((cfg0.win 9).blk t).view.read (Elt Ideal) (outArr D) := by
  rw [Cert.KernelIdeal.Value.flushed9]
  unfold out0_9
  rw [View.canon_unit_zero zero2]
  simp only [View.ld_unit_zero (S := S8192x7) zero2, View.ld_unit_zero (S := S8192x4) zero2,
    View.ld_unit_zero (S := S11x23) zero2, View.ld_unit_zero (S := S23) zero1, View.ld_unit_zero (S := S8x4) zero2,
    View.ld_unit_zero (S := S4) zero1, View.ld_unit_zero (S := S15x28) zero2, View.ld_unit_zero (S := S6x24) zero2,
    View.ld_unit_zero (S := S24x4) zero2]
  funext j
  obtain ⟨p, i, rfl⟩ : ∃ (p : Fin 8192) (i : Fin 4), j = ix2 p i := ⟨j 0, j 1, eq_ix2 j⟩
  show k0_pay1 (iblk m c 1 t) (k0_pay3 (iblk m c 0 t) (iblk m c 1 t) (iblk m c 2 t) (iblk m c 3 t) (iblk m c 4 t) (iblk m c 5 t))
      (k0_pay5 (iblk m c 0 t) (iblk m c 1 t) (iblk m c 2 t) (iblk m c 3 t) (iblk m c 6 t))
      (k0_pay6 (iblk m c 0 t) (iblk m c 1 t) (iblk m c 2 t) (iblk m c 3 t) (iblk m c 6 t) (iblk m c 7 t)) (iblk m c 8 t) (ix2 p i)
    = outArr D (((cfg0.win 9).blk t).view.emb (ix2 p i))
  have e : ((cfg0.win 9).blk t).view.emb (ix2 p i) = ix2 (rowOf t p) i := by
    obtain ⟨-, -, ⟨e0, e1⟩, -⟩ := idx_facts t
    funext a; apply Fin.ext
    match a with
    | ⟨0, _⟩ => show win0_9.index t (0 : Fin 2) * 8192 + 1 * p.val = t.val * 8192 + p.val; rw [e0]; omega
    | ⟨1, _⟩ => show win0_9.index t (1 : Fin 2) * 4 + 1 * i.val = i.val; rw [e1]; omega
  rw [e]
  exact body_at (iblk m c 0 t) (iblk m c 1 t) (fun p => D.X0 (rowOf t p)) (fun p => D.X1 (rowOf t p))
    (blk0_at hP t) (blk1_at hP t) (iblk m c 2 t) (iblk m c 3 t) (wgp1 D.P) (bgp1 D.P) (blk2_at hP t) (blk3_at hP t)
    (iblk m c 4 t) (iblk m c 5 t) (iblk m c 6 t) (iblk m c 7 t) (iblk m c 8 t)
    (pw2s D.P) (pb2s D.P) (comb D.P) tile (on D.P)
    (blk4_at hP t) (blk5_at hP t) (blk6_at hP t) (blk7_at hP t) (blk8_at hP t) p i

omit hP in
/-- An index of the output array is in point t's block iff each coordinate is in the block's range on its axis. -/
theorem mem_blk (t : Fin cfg0.N) (i : S1048576x4.Idx) :
    i ∈ ((cfg0.win 9).blk t).view.set ↔ ∀ a : Fin 2, win0_9.index t a * S8192x4.size a ≤ (i a).val
      ∧ (i a).val < win0_9.index t a * S8192x4.size a + S8192x4.size a := by
  show i ∈ ((View.whole main_v21).slice (win0_9.rect t)).set ↔ _
  rw [View.set_slice_whole, Rect.mem_set_unit]
  exact Iff.rfl

omit hP in
/-- Every row is some grid point's: row r is in the block of point r / 8192. -/
theorem cover (i : S1048576x4.Idx) :
    ∃ t : Fin cfg0.N, (cfg0.win 9).flush t = true ∧ i ∈ ((cfg0.win 9).blk t).view.set := by
  have hi0 : (i 0).val < 1048576 := (i 0).isLt
  have hi1 : (i 1).val < 4 := (i 1).isLt
  have ht : (i 0).val / 8192 < 128 := by omega
  refine ⟨⟨(i 0).val / 8192, ht⟩, flush0_9 _, ?_⟩
  rw [mem_blk]
  obtain ⟨-, -, ⟨e0, e1⟩, -⟩ := idx_facts ⟨(i 0).val / 8192, ht⟩
  intro a
  match a with
  | ⟨0, _⟩ =>
    show win0_9.index ⟨(i 0).val / 8192, ht⟩ (0 : Fin 2) * 8192 ≤ (i 0).val
      ∧ (i 0).val < win0_9.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_9.index ⟨(i 0).val / 8192, ht⟩ (1 : Fin 2) * 4 ≤ (i 1).val
      ∧ (i 1).val < win0_9.index ⟨(i 0).val / 8192, ht⟩ (1 : Fin 2) * 4 + 4
    rw [e1]; omega

/-- After the run the output array holds, at every row and target, the kernel's row of the real data. -/
theorem ker_array : (dats m 0 c).arrAt 9 cfg0.N = outArr D :=
  (dats m 0 c).arrAt_eq_of_cover 9 (outArr D) (fun t _ => flushed_eq hP t) cover

end Cert.Tnn

end
-- ==== Proof.lean ====
/-
  The thermal-network cell: a kernel that works through 128 blocks of 8192 batch rows, against its reference, equal
  over the extended reals whenever every float input is finite and every entry of the adjacency table is a
  conductance index below 15.

  Under that precondition the argument arrays are real data (PreDecode). The reference's result at row r and target
  i is the reference's row formula of that data (RefSide). The kernel's program prepares seven matrices on the host
  (HostSide); its body, run on a block of rows and those matrices, stores the body's row formula (Payload); the 128
  blocks tile the output array (Blocks). The two row formulas are one function (RealId): tanh y = 2σ(2y) − 1, a
  positive factor passes through an absolute value, a gather is a product with a one-hot matrix, and the sums over
  the six temperatures of each target are products with 0/1 matrices over the 24 flat positions.
  The first result of both programs is the hidden-state argument itself.
-/
import proofs.«403158_j38749194944734_3_alg».proof.Defs
import proofs.«403158_j38749194944734_3_alg».proof.Proof.Gen.Kernel
import proofs.«403158_j38749194944734_3_alg».proof.Proof.Gen.Kernel.Skeleton
import proofs.«403158_j38749194944734_3_alg».proof.Proof.Gen.Kernel.Launch
import proofs.«403158_j38749194944734_3_alg».proof.Proof.Gen.Kernel.Points
import proofs.«403158_j38749194944734_3_alg».proof.Proof.Gen.Kernel.Frame
import proofs.«403158_j38749194944734_3_alg».proof.Proof.Gen.KernelIdeal
import proofs.«403158_j38749194944734_3_alg».proof.Proof.Gen.KernelIdeal.Skeleton
import proofs.«403158_j38749194944734_3_alg».proof.Proof.Gen.KernelIdeal.Launch
import proofs.«403158_j38749194944734_3_alg».proof.Proof.Gen.KernelIdeal.Points
import proofs.«403158_j38749194944734_3_alg».proof.Proof.Gen.KernelIdeal.Frame
import proofs.«403158_j38749194944734_3_alg».proof.Proof.Gen.ReferenceIdeal
import proofs.«403158_j38749194944734_3_alg».proof.Proof.Gen.Pre_finite_inputs
import proofs.«403158_j38749194944734_3_alg».proof.Proof.Gen.KernelIdeal.Value
import proofs.«403158_j38749194944734_3_alg».proof.Proof.Gen.ReferenceIdeal.Run
import proofs.«403158_j38749194944734_3_alg».proof.Proof.Gen.ReferenceIdeal.Read
import proofs.«403158_j38749194944734_3_alg».proof.Proof.RealId
import proofs.«403158_j38749194944734_3_alg».proof.Proof.RefSide
import proofs.«403158_j38749194944734_3_alg».proof.Proof.HostSide
import proofs.«403158_j38749194944734_3_alg».proof.Proof.PreDecode
import proofs.«403158_j38749194944734_3_alg».proof.Proof.Blocks
import Idealize.ShloMosaic.Adequacy
import Idealize.ShloMosaic.Init

noncomputable section

namespace Cert.Proof

open Idealize.ShloMosaic Idealize.ShloMosaic.ValueIdx Idealize.ShloMosaic.TcCoe Idealize.SL.Sem

section Kernel
open Cert.KernelIdeal Cert.KernelIdeal.Gen

/-- What the region finds in its nine operands, from the real data of the arguments: the two batch arrays are
    arguments no host operation writes, the other seven are the prepared matrices. -/
theorem prepared (m : (ℓ : Loc nD τ sig) → Buf (Elt Ideal) ℓ) (c : Dev nD) {D : Cert.Tnn.Data}
    (hD : Cert.Tnn.IsData D (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))) :
    Cert.Tnn.Prepared m c D where
  x0 := fun r k => by rw [V_main_arg0]; exact hD.h0 r k
  x1 := fun r i => by rw [V_main_arg1]; exact hD.h1 r i
  w := Cert.Tnn.V_wgp1 m c hD
  b := Cert.Tnn.V_bgp1 m c hD
  w2 := Cert.Tnn.V_pw2s m c hD
  b2 := Cert.Tnn.V_pb2s m c hD
  cm := Cert.Tnn.V_comb m c hD
  tl := Cert.Tnn.V_tile m c hD
  o := Cert.Tnn.V_on m c hD

end Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs return the hidden-state argument unchanged, and an output array that holds at row r and target
    i the common row formula of the arguments' real data. -/
theorem algebraic : Cert.algebraic_KernelIdeal_ReferenceIdeal := by
  intro m ρ m' ρ' hpre hagree
  choose D hD using fun c => Cert.Tnn.data_of_pre m hpre c
  refine ⟨fun c => m ((c.tc : Thread Cert.KernelIdeal.nD Cert.KernelIdeal.τ).loc Cert.KernelIdeal.main_arg1),
    fun c => Cert.Tnn.outArr (D c), ?_, ?_⟩
  · refine (θ_run Cert.KernelIdeal.defs _ _).mono (fun r h c => ?_)
      (Cert.KernelIdeal.Value.run_blocks (F := Ideal) m ρ)
    obtain ⟨hout, h0, h1, h2, h3, h4, h5, h6, h7, h8, h9⟩ := h c
    exact ⟨h1, hout.trans (Cert.Tnn.ker_array (prepared m c (hD c))), h0, h1, h2, h3, h4, h5, h6, h7, h8, h9⟩
  · refine (θ_run Cert.ReferenceIdeal.defs _ _).mono (fun r h c => ?_)
      (Cert.ReferenceIdeal.Value.run (F := Ideal) m' ρ')
    obtain ⟨h1, hout, rest⟩ := h c
    obtain ⟨a0, a1, a2, a3, a4, a5, a6, a7, a8, a9⟩ := hagree c
    refine ⟨h1.trans a1, hout.trans ?_, rest⟩
    rw [Cert.ReferenceIdeal.Read.val_main_v46_eq, a0, a1, a2, a3, a4, a5, a6, a7, a8, a9]
    funext idx
    obtain ⟨r, i, rfl⟩ : ∃ (r : Fin 1048576) (i : Fin 4), idx = ix2 r i := ⟨idx 0, idx 1, eq_ix2 idx⟩
    rw [Cert.Tnn.ref_value (hD c) r i, ← Cert.Tnn.kerRow_eq_refRow]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
